-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S9x4x64x32x32 : Shape := ⟨5, ![9, 4, 64, 32, 32]⟩
abbrev S4x64x32x32 : Shape := ⟨4, ![4, 64, 32, 32]⟩
abbrev S4x1x32x32 : Shape := ⟨4, ![4, 1, 32, 32]⟩
abbrev S4x9x2 : Shape := ⟨3, ![4, 9, 2]⟩
abbrev S_ : Shape := ⟨0, ![]⟩
abbrev S4x9x1 : Shape := ⟨3, ![4, 9, 1]⟩
abbrev S4x9 : Shape := ⟨2, ![4, 9]⟩
abbrev S4x9x1x1 : Shape := ⟨4, ![4, 9, 1, 1]⟩
abbrev S4x9x32x32 : Shape := ⟨4, ![4, 9, 32, 32]⟩
abbrev S4x9216 : Shape := ⟨2, ![4, 9216]⟩
abbrev S4 : Shape := ⟨1, ![4]⟩

class Facts : Prop where
  bcast_S_S9x4x64x32x32 : S_.BroadcastsInDim S9x4x64x32x32 (![] : Fin 0 → Fin S9x4x64x32x32.rank)
  reducesTo_S9x4x64x32x32_S_d0_1_2_3_4 : S9x4x64x32x32.ReducesTo [0, 1, 2, 3, 4] S_
  h_S_ : 0 < S_.numel
  bcast_S_S4x64x32x32 : S_.BroadcastsInDim S4x64x32x32 (![] : Fin 0 → Fin S4x64x32x32.rank)
  reducesTo_S4x64x32x32_S_d0_1_2_3 : S4x64x32x32.ReducesTo [0, 1, 2, 3] S_
  bcast_S_S4x1x32x32 : S_.BroadcastsInDim S4x1x32x32 (![] : Fin 0 → Fin S4x1x32x32.rank)
  reducesTo_S4x1x32x32_S_d0_1_2_3 : S4x1x32x32.ReducesTo [0, 1, 2, 3] S_
  slices_S4x9x2_S4x9x1_0_0_1 : S4x9x2.Slices ![0, 0, 1] S4x9x1
  shapeCasts_S4x9x1_S4x9 : S4x9x1.ShapeCasts S4x9
  bcast_S_S4x9 : S_.BroadcastsInDim S4x9 (![] : Fin 0 → Fin S4x9.rank)
  slices_S4x9x2_S4x9x1_0_0_0 : S4x9x2.Slices ![0, 0, 0] S4x9x1
  bcast_S4x9_S4x9x1x1_0_1 : S4x9.BroadcastsInDim S4x9x1x1 (![0, 1] : Fin 2 → Fin S4x9x1x1.rank)
  bcast_S4x9x1x1_S4x9x32x32_0_1_2_3 : S4x9x1x1.BroadcastsInDim S4x9x32x32 (![0, 1, 2, 3] : Fin 4 → Fin S4x9x32x32.rank)
  bcast_S4x1x32x32_S4x9x32x32_0_1_2_3 : S4x1x32x32.BroadcastsInDim S4x9x32x32 (![0, 1, 2, 3] : Fin 4 → Fin S4x9x32x32.rank)
  bcast_S_S4x9x32x32 : S_.BroadcastsInDim S4x9x32x32 (![] : Fin 0 → Fin S4x9x32x32.rank)
  shapeCasts_S4x9x32x32_S4x9216 : S4x9x32x32.ShapeCasts S4x9216
  natLt_1_32 : 1 < 32
  reducesTo_S4x9216_S4_d1 : S4x9216.ReducesTo [1] S4
  bcast_S_S4 : S_.BroadcastsInDim S4 (![] : Fin 0 → Fin S4.rank)
  reducesTo_S4_S_d0 : S4.ReducesTo [0] S_

variable [Facts]

def fn_part2 {F : FTy → Type} [FloatOps F] (main_v18 : IVec S_ 1) (main_v36 : FVec F S4x9x32x32 .f32) (main_cst_8 : FVec F S_ .f32) : IVec S_ 1 :=
  let main_v37 : FVec F S4x9x32x32 .f32 := broadcastInDim S4x9x32x32 ![] bcast_S_S4x9x32x32 main_cst_8
  let main_v38 : IVec S4x9x32x32 1 := cmpf .ogt main_v36 main_v37
  let main_v39 : IVec S4x9216 1 := shapeCast S4x9216 main_v38 shapeCasts_S4x9x32x32_S4x9216
  let main_v40 : IVec S4x9216 32 := (extui 32 · natLt_1_32) main_v39
  let main_c_9 : IVec S_ 32 := constantI S_ 32 0#32
  let main_v41 : IVec S4 32 := (fun x v => Host.reduce IntOp.addi x v reducesTo_S4x9216_S4_d1 h_S_) main_v40 main_c_9
  let main_c_10 : IVec S_ 32 := constantI S_ 32 0#32
  let main_v42 : IVec S4 32 := broadcastInDim S4 ![] bcast_S_S4 main_c_10
  let main_v43 : IVec S4 1 := cmpi .sgt main_v41 main_v42
  let main_c_11 : IVec S_ 1 := constantI S_ 1 1#1
  let main_v44 : IVec S_ 1 := (fun x v => Host.reduce IntOp.andi x v reducesTo_S4_S_d0 h_S_) main_v43 main_c_11
  let main_v45 : IVec S_ 1 := andi main_v18 main_v44
  main_v45

def fn_part1 {F : FTy → Type} [FloatOps F] (main_arg3 : FVec F S4x1x32x32 .f32) (main_arg4 : IVec S4x9x2 32) (main_v13 : IVec S_ 1) (main_v16 : IVec S4x1x32x32 1) : IVec S_ 1 :=
  let main_c_5 : IVec S_ 1 := constantI S_ 1 1#1
  let main_v17 : IVec S_ 1 := (fun x v => Host.reduce IntOp.andi x v reducesTo_S4x1x32x32_S_d0_1_2_3 h_S_) main_v16 main_c_5
  let main_v18 : IVec S_ 1 := andi main_v13 main_v17
  let main_v19 : FVec F S4x9x2 .f32 := sitofp .f32 main_arg4
  let main_v20 : FVec F S4x9x1 .f32 := (extractStridedSlice S4x9x1 ![0, 0, 1] · slices_S4x9x2_S4x9x1_0_0_1) main_v19
  let main_v21 : FVec F S4x9 .f32 := shapeCast S4x9 main_v20 shapeCasts_S4x9x1_S4x9
  let main_cst_6 : FVec F S_ .f32 := constant S_ .f32 0x40A00000#32
  let main_v22 : FVec F S4x9 .f32 := broadcastInDim S4x9 ![] bcast_S_S4x9 main_cst_6
  let main_v23 : FVec F S4x9 .f32 := subf main_v21 main_v22
  let main_v24 : FVec F S4x9 .f32 := mulf main_v23 main_v23
  let main_v25 : FVec F S4x9x1 .f32 := (extractStridedSlice S4x9x1 ![0, 0, 0] · slices_S4x9x2_S4x9x1_0_0_0) main_v19
  let main_v26 : FVec F S4x9 .f32 := shapeCast S4x9 main_v25 shapeCasts_S4x9x1_S4x9
  let main_cst_7 : FVec F S_ .f32 := constant S_ .f32 0x40A00000#32
  let main_v27 : FVec F S4x9 .f32 := broadcastInDim S4x9 ![] bcast_S_S4x9 main_cst_7
  let main_v28 : FVec F S4x9 .f32 := subf main_v26 main_v27
  let main_v29 : FVec F S4x9 .f32 := mulf main_v28 main_v28
  let main_v30 : FVec F S4x9 .f32 := addf main_v24 main_v29
  let main_v31 : FVec F S4x9 .f32 := Host.sqrt main_v30
  let main_v32 : FVec F S4x9x1x1 .f32 := broadcastInDim S4x9x1x1 ![0, 1] bcast_S4x9_S4x9x1x1_0_1 main_v31
  let main_v33 : FVec F S4x9x32x32 .f32 := broadcastInDim S4x9x32x32 ![0, 1, 2, 3] bcast_S4x9x1x1_S4x9x32x32_0_1_2_3 main_v32
  let main_v34 : FVec F S4x9x32x32 .f32 := broadcastInDim S4x9x32x32 ![0, 1, 2, 3] bcast_S4x1x32x32_S4x9x32x32_0_1_2_3 main_arg3
  let main_v35 : FVec F S4x9x32x32 .f32 := mulf main_v33 main_v34
  let main_v36 : FVec F S4x9x32x32 .f32 := Host.absf main_v35
  let main_cst_8 : FVec F S_ .f32 := constant S_ .f32 0x3F000000#32
  fn_part2 (F := F) main_v18 main_v36 main_cst_8

def fn {F : FTy → Type} [FloatOps F] (main_arg0 : FVec F S9x4x64x32x32 .f32) (main_arg1 : FVec F S9x4x64x32x32 .f32) (main_arg2 : FVec F S4x64x32x32 .f32) (main_arg3 : FVec F S4x1x32x32 .f32) (main_arg4 : IVec S4x9x2 32) : IVec S_ 1 :=
  let main_v0 : FVec F S9x4x64x32x32 .f32 := Host.absf main_arg0
  let main_cst : FVec F S_ .f32 := constant S_ .f32 0x7F800000#32
  let main_v1 : FVec F S9x4x64x32x32 .f32 := broadcastInDim S9x4x64x32x32 ![] bcast_S_S9x4x64x32x32 main_cst
  let main_v2 : IVec S9x4x64x32x32 1 := cmpf .olt main_v0 main_v1
  let main_c : IVec S_ 1 := constantI S_ 1 1#1
  let main_v3 : IVec S_ 1 := (fun x v => Host.reduce IntOp.andi x v reducesTo_S9x4x64x32x32_S_d0_1_2_3_4 h_S_) main_v2 main_c
  let main_v4 : FVec F S9x4x64x32x32 .f32 := Host.absf main_arg1
  let main_cst_0 : FVec F S_ .f32 := constant S_ .f32 0x7F800000#32
  let main_v5 : FVec F S9x4x64x32x32 .f32 := broadcastInDim S9x4x64x32x32 ![] bcast_S_S9x4x64x32x32 main_cst_0
  let main_v6 : IVec S9x4x64x32x32 1 := cmpf .olt main_v4 main_v5
  let main_c_1 : IVec S_ 1 := constantI S_ 1 1#1
  let main_v7 : IVec S_ 1 := (fun x v => Host.reduce IntOp.andi x v reducesTo_S9x4x64x32x32_S_d0_1_2_3_4 h_S_) main_v6 main_c_1
  let main_v8 : IVec S_ 1 := andi main_v3 main_v7
  let main_v9 : FVec F S4x64x32x32 .f32 := Host.absf main_arg2
  let main_cst_2 : FVec F S_ .f32 := constant S_ .f32 0x7F800000#32
  let main_v10 : FVec F S4x64x32x32 .f32 := broadcastInDim S4x64x32x32 ![] bcast_S_S4x64x32x32 main_cst_2
  let main_v11 : IVec S4x64x32x32 1 := cmpf .olt main_v9 main_v10
  let main_c_3 : IVec S_ 1 := constantI S_ 1 1#1
  let main_v12 : IVec S_ 1 := (fun x v => Host.reduce IntOp.andi x v reducesTo_S4x64x32x32_S_d0_1_2_3 h_S_) main_v11 main_c_3
  let main_v13 : IVec S_ 1 := andi main_v8 main_v12
  let main_v14 : FVec F S4x1x32x32 .f32 := Host.absf main_arg3
  let main_cst_4 : FVec F S_ .f32 := constant S_ .f32 0x7F800000#32
  let main_v15 : FVec F S4x1x32x32 .f32 := broadcastInDim S4x1x32x32 ![] bcast_S_S4x1x32x32 main_cst_4
  let main_v16 : IVec S4x1x32x32 1 := cmpf .olt main_v14 main_v15
  fn_part1 (F := F) main_arg3 main_arg4 main_v13 main_v16
-- ==== Kernel.lean ====
abbrev S9x4x64x32x32 : Shape := ⟨5, ![9, 4, 64, 32, 32]⟩
abbrev S4x64x32x32 : Shape := ⟨4, ![4, 64, 32, 32]⟩
abbrev S4x1x32x32 : Shape := ⟨4, ![4, 1, 32, 32]⟩
abbrev S4x9x2 : Shape := ⟨3, ![4, 9, 2]⟩
abbrev S9x4x64x1024 : Shape := ⟨4, ![9, 4, 64, 1024]⟩
abbrev S4x64x1024 : Shape := ⟨3, ![4, 64, 1024]⟩
abbrev S4x9x1 : Shape := ⟨3, ![4, 9, 1]⟩
abbrev S4x9 : Shape := ⟨2, ![4, 9]⟩
abbrev S_ : Shape := ⟨0, ![]⟩
abbrev S4x9x1x1 : Shape := ⟨4, ![4, 9, 1, 1]⟩
abbrev S4x9x32x32 : Shape := ⟨4, ![4, 9, 32, 32]⟩
abbrev S4x1x9216 : Shape := ⟨3, ![4, 1, 9216]⟩
abbrev S1x64x256 : Shape := ⟨3, ![1, 64, 256]⟩
abbrev S9x1x64x1024 : Shape := ⟨4, ![9, 1, 64, 1024]⟩
abbrev S1x1x9216 : Shape := ⟨3, ![1, 1, 9216]⟩
abbrev S64x256 : Shape := ⟨2, ![64, 256]⟩
abbrev S256x1 : Shape := ⟨2, ![256, 1]⟩
abbrev S256x64 : Shape := ⟨2, ![256, 64]⟩
abbrev S1x1x64x1024 : Shape := ⟨4, ![1, 1, 64, 1024]⟩
abbrev S64x1024 : Shape := ⟨2, ![64, 1024]⟩
abbrev S1x1x1024 : Shape := ⟨3, ![1, 1, 1024]⟩
abbrev S1x1024 : Shape := ⟨2, ![1, 1024]⟩
abbrev S256x1024 : Shape := ⟨2, ![256, 1024]⟩
abbrev S256 : Shape := ⟨1, ![256]⟩

abbrev nBuf : Space → Nat
  | .hbm => 39
  | .vmem => 10
  | .smem => 0
  | _ => 0

abbrev bufTy : (tb : Table) → Fin (tcTables nBuf tb) → BufTy
  | .hbm, ⟨0, _⟩ => ⟨S9x4x64x32x32, .f32⟩
  | .hbm, ⟨1, _⟩ => ⟨S9x4x64x32x32, .f32⟩
  | .hbm, ⟨2, _⟩ => ⟨S4x64x32x32, .f32⟩
  | .hbm, ⟨3, _⟩ => ⟨S4x1x32x32, .f32⟩
  | .hbm, ⟨4, _⟩ => ⟨S4x9x2, .i32⟩
  | .hbm, ⟨5, _⟩ => ⟨S9x4x64x1024, .f32⟩
  | .hbm, ⟨6, _⟩ => ⟨S9x4x64x1024, .f32⟩
  | .hbm, ⟨7, _⟩ => ⟨S4x64x1024, .f32⟩
  | .hbm, ⟨8, _⟩ => ⟨S4x9x2, .f32⟩
  | .hbm, ⟨9, _⟩ => ⟨S4x9x1, .f32⟩
  | .hbm, ⟨10, _⟩ => ⟨S4x9, .f32⟩
  | .hbm, ⟨11, _⟩ => ⟨S_, .f32⟩
  | .hbm, ⟨12, _⟩ => ⟨S4x9, .f32⟩
  | .hbm, ⟨13, _⟩ => ⟨S4x9, .f32⟩
  | .hbm, ⟨14, _⟩ => ⟨S4x9, .f32⟩
  | .hbm, ⟨15, _⟩ => ⟨S4x9x1, .f32⟩
  | .hbm, ⟨16, _⟩ => ⟨S4x9, .f32⟩
  | .hbm, ⟨17, _⟩ => ⟨S_, .f32⟩
  | .hbm, ⟨18, _⟩ => ⟨S4x9, .f32⟩
  | .hbm, ⟨19, _⟩ => ⟨S4x9, .f32⟩
  | .hbm, ⟨20, _⟩ => ⟨S4x9, .f32⟩
  | .hbm, ⟨21, _⟩ => ⟨S4x9, .f32⟩
  | .hbm, ⟨22, _⟩ => ⟨S4x9, .f32⟩
  | .hbm, ⟨23, _⟩ => ⟨S4x9x1x1, .f32⟩
  | .hbm, ⟨24, _⟩ => ⟨S4x9x32x32, .f32⟩
  | .hbm, ⟨25, _⟩ => ⟨S4x9x32x32, .f32⟩
  | .hbm, ⟨26, _⟩ => ⟨S4x9x32x32, .f32⟩
  | .hbm, ⟨27, _⟩ => ⟨S4x9x32x32, .f32⟩
  | .hbm, ⟨28, _⟩ => ⟨S_, .f32⟩
  | .hbm, ⟨29, _⟩ => ⟨S4x9x32x32, .f32⟩
  | .hbm, ⟨30, _⟩ => ⟨S4x9x32x32, .i1⟩
  | .hbm, ⟨31, _⟩ => ⟨S_, .f32⟩
  | .hbm, ⟨32, _⟩ => ⟨S_, .f32⟩
  | .hbm, ⟨33, _⟩ => ⟨S4x9x32x32, .f32⟩
  | .hbm, ⟨34, _⟩ => ⟨S4x9x32x32, .f32⟩
  | .hbm, ⟨35, _⟩ => ⟨S4x9x32x32, .f32⟩
  | .hbm, ⟨36, _⟩ => ⟨S4x1x9216, .f32⟩
  | .hbm, ⟨37, _⟩ => ⟨S4x64x1024, .f32⟩
  | .hbm, ⟨38, _⟩ => ⟨S4x64x32x32, .f32⟩
  | .local _ .vmem, ⟨0, _⟩ => ⟨S1x64x256, .f32⟩
  | .local _ .vmem, ⟨1, _⟩ => ⟨S1x64x256, .f32⟩
  | .local _ .vmem, ⟨2, _⟩ => ⟨S9x1x64x1024, .f32⟩
  | .local _ .vmem, ⟨3, _⟩ => ⟨S9x1x64x1024, .f32⟩
  | .local _ .vmem, ⟨4, _⟩ => ⟨S9x1x64x1024, .f32⟩
  | .local _ .vmem, ⟨5, _⟩ => ⟨S9x1x64x1024, .f32⟩
  | .local _ .vmem, ⟨6, _⟩ => ⟨S1x1x9216, .f32⟩
  | .local _ .vmem, ⟨7, _⟩ => ⟨S1x1x9216, .f32⟩
  | .local _ .vmem, ⟨8, _⟩ => ⟨S1x64x256, .f32⟩
  | .local _ .vmem, ⟨9, _⟩ => ⟨S1x64x256, .f32⟩
  | _, _ => ⟨S9x4x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c9_i32 : BitVec 32 := 9#32
  let v6 : BitVec 32 := Scalar.addi c0_i32 c9_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c1024_i32 : BitVec 32 := 1024#32
  let v14 : BitVec 32 := Scalar.muli arg7 c1024_i32
  v14
def k0_off1 (k0_t1 : Fin k0_t1_loop.trips) : Fin 4 → Nat :=
  let c0_i32 : BitVec 32 := 0#32
  let c1_i32 : BitVec 32 := 1#32
  let arg7 : BitVec 32 := Scf.iv c0_i32 c1_i32 k0_t1
  let v16 : Index := Scalar.indexCast arg7
  let c0_8 : Index := 0#32
  let c0_9 : Index := 0#32
  let c0_10 : Index := 0#32
  ![v16.toNat, 0, 0, 0]
def k0_off2 (k0_t1 : Fin k0_t1_loop.trips) : Fin 3 → Nat :=
  let c0_14 : Index := 0#32
  let c0_15 : Index := 0#32
  let c0_i32 : BitVec 32 := 0#32
  let c1_i32 : BitVec 32 := 1#32
  let arg7 : BitVec 32 := Scf.iv c0_i32 c1_i32 k0_t1
  let c1024_i32 : BitVec 32 := 1024#32
  let v14 : BitVec 32 := Scalar.muli arg7 c1024_i32
  let v15 : BitVec 32 := v14
  let v24 : Index := Scalar.indexCast v15
  ![0, 0, v24.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S9x1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S9x1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x9216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S9x4x64x32x32_S9x4x64x1024 : S9x4x64x32x32.ShapeCasts S9x4x64x1024
  shapeCasts_S4x64x32x32_S4x64x1024 : S4x64x32x32.ShapeCasts S4x64x1024
  slices_S4x9x2_S4x9x1_0_0_1 : S4x9x2.Slices ![0, 0, 1] S4x9x1
  shapeCasts_S4x9x1_S4x9 : S4x9x1.ShapeCasts S4x9
  bcast_S_S4x9 : S_.BroadcastsInDim S4x9 (![] : Fin 0 → Fin S4x9.rank)
  slices_S4x9x2_S4x9x1_0_0_0 : S4x9x2.Slices ![0, 0, 0] S4x9x1
  bcast_S4x9_S4x9x1x1_0_1 : S4x9.BroadcastsInDim S4x9x1x1 (![0, 1] : Fin 2 → Fin S4x9x1x1.rank)
  bcast_S4x9x1x1_S4x9x32x32_0_1_2_3 : S4x9x1x1.BroadcastsInDim S4x9x32x32 (![0, 1, 2, 3] : Fin 4 → Fin S4x9x32x32.rank)
  bcast_S4x1x32x32_S4x9x32x32_0_1_2_3 : S4x1x32x32.BroadcastsInDim S4x9x32x32 (![0, 1, 2, 3] : Fin 4 → Fin S4x9x32x32.rank)
  bcast_S_S4x9x32x32 : S_.BroadcastsInDim S4x9x32x32 (![] : Fin 0 → Fin S4x9x32x32.rank)
  shapeCasts_S4x9x32x32_S4x1x9216 : S4x9x32x32.ShapeCasts S4x1x9216
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  bitsLt_bf16_f32 : FTy.bits .bf16 < FTy.bits .f32
  h_S1x1x64x1024 : 0 < S1x1x64x1024.numel
  shapeCasts_S1x1x64x1024_S64x1024 : S1x1x64x1024.ShapeCasts S64x1024
  h_S1x1x1024 : 0 < S1x1x1024.numel
  shapeCasts_S1x1x1024_S1x1024 : S1x1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  broadcasts_S256x1_S256x64 : S256x1.Broadcasts S256x64
  transposes_S256x64_p1_0_S64x256 : S256x64.Transposes [1, 0] S64x256
  shapeCasts_S64x256_S1x64x256 : S64x256.ShapeCasts S1x64x256
  shapeCasts_S4x64x1024_S4x64x32x32 : S4x64x1024.ShapeCasts S4x64x32x32
  dot_S64x256_S64x1024_S256x1024_0_0_1_1_n_n_wf : DotDims.WF S64x256 S64x1024 S256x1024 [0] [0] [1] [1] [] []
  dot_S256x1024_S64x1024_S256x64_1_1_0_0_n_n_wf : DotDims.WF S256x1024 S64x1024 S256x64 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x1x64x1024.size a ≤ S9x1x64x1024.size a
  k0_off2_inb : ∀ k0_t1 : Fin k0_t1_loop.trips, ∀ a, (k0_off2 k0_t1) a + S1x1x1024.size a ≤ S1x1x9216.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256.size a ≤ S4x64x1024.size a
  hwx0_0 : ∀ i : grid0.Coords, EltTy.bits .f32 = 32 ∨ (Rect.block (s := S4x64x1024) S1x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9x1x64x1024.size a ≤ S9x4x64x1024.size a
  hwx0_1 : ∀ i : grid0.Coords, EltTy.bits .f32 = 32 ∨ (Rect.block (s := S9x4x64x1024) S9x1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9x1x64x1024.size a ≤ S9x4x64x1024.size a
  hwx0_2 : ∀ i : grid0.Coords, EltTy.bits .f32 = 32 ∨ (Rect.block (s := S9x4x64x1024) S9x1x64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x9216.size a ≤ S4x1x9216.size a
  hwx0_3 : ∀ i : grid0.Coords, EltTy.bits .f32 = 32 ∨ (Rect.block (s := S4x1x9216) S1x1x9216.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x256.size a ≤ S4x64x1024.size a
  hwx0_4 : ∀ i : grid0.Coords, EltTy.bits .f32 = 32 ∨ (Rect.block (s := S4x64x1024) S1x64x256.size (cc0_transform_4 i) (hinb0_4 i)).WholeWords (EltTy.packing .f32)

variable [Facts₀]

def dot_S64x256_S64x1024_S256x1024_0_0_1_1_n_n : DotDims S64x256 S64x1024 S256x1024 where
  lhsContracting := [0]
  rhsContracting := [0]
  lhsNonContracting := [1]
  rhsNonContracting := [1]
  lhsBatch := []
  rhsBatch := []
  wf := dot_S64x256_S64x1024_S256x1024_0_0_1_1_n_n_wf
def dot_S256x1024_S64x1024_S256x64_1_1_0_0_n_n : DotDims S256x1024 S64x1024 S256x64 where
  lhsContracting := [1]
  rhsContracting := [1]
  lhsNonContracting := [0]
  rhsNonContracting := [0]
  lhsBatch := []
  rhsBatch := []
  wf := dot_S256x1024_S64x1024_S256x64_1_1_0_0_n_n_wf

abbrev win0_0 : Pipeline.Window sig grid0 :=
  Pipeline.Window.ofSpec (Memref.whole main_v2) S1x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S9x1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S9x1x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x1x9216.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S9x4x64x32x32 : Shape := ⟨5, ![9, 4, 64, 32, 32]⟩
abbrev S4x64x32x32 : Shape := ⟨4, ![4, 64, 32, 32]⟩
abbrev S4x1x32x32 : Shape := ⟨4, ![4, 1, 32, 32]⟩
abbrev S4x9x2 : Shape := ⟨3, ![4, 9, 2]⟩
abbrev S4x64x9x32x32 : Shape := ⟨5, ![4, 64, 9, 32, 32]⟩
abbrev S4x64x9216 : Shape := ⟨3, ![4, 64, 9216]⟩
abbrev S4x64x1024 : Shape := ⟨3, ![4, 64, 1024]⟩
abbrev S4x1024x64 : Shape := ⟨3, ![4, 1024, 64]⟩
abbrev S4x1024x9216 : Shape := ⟨3, ![4, 1024, 9216]⟩
abbrev S4x9x1 : Shape := ⟨3, ![4, 9, 1]⟩
abbrev S4x9 : Shape := ⟨2, ![4, 9]⟩
abbrev S_ : Shape := ⟨0, ![]⟩
abbrev S4x9x1x1 : Shape := ⟨4, ![4, 9, 1, 1]⟩
abbrev S4x9x32x32 : Shape := ⟨4, ![4, 9, 32, 32]⟩
abbrev S4x1x9216 : Shape := ⟨3, ![4, 1, 9216]⟩
abbrev S4x1024 : Shape := ⟨2, ![4, 1024]⟩
abbrev S4x1024x1 : Shape := ⟨3, ![4, 1024, 1]⟩
abbrev S4x9216x64 : Shape := ⟨3, ![4, 9216, 64]⟩

abbrev nBuf : Space → Nat
  | .hbm => 62
  | .vmem => 0
  | .smem => 0
  | _ => 0

abbrev bufTy : (tb : Table) → Fin (tcTables nBuf tb) → BufTy
  | .hbm, ⟨0, _⟩ => ⟨S9x4x64x32x32, .f32⟩
  | .hbm, ⟨1, _⟩ => ⟨S9x4x64x32x32, .f32⟩
  | .hbm, ⟨2, _⟩ => ⟨S4x64x32x32, .f32⟩
  | .hbm, ⟨3, _⟩ => ⟨S4x1x32x32, .f32⟩
  | .hbm, ⟨4, _⟩ => ⟨S4x9x2, .i32⟩
  | .hbm, ⟨5, _⟩ => ⟨S4x64x9x32x32, .f32⟩
  | .hbm, ⟨6, _⟩ => ⟨S4x64x9216, .f32⟩
  | .hbm, ⟨7, _⟩ => ⟨S4x64x1024, .f32⟩
  | .hbm, ⟨8, _⟩ => ⟨S4x1024x64, .f32⟩
  | .hbm, ⟨9, _⟩ => ⟨S4x1024x9216, .f32⟩
  | .hbm, ⟨10, _⟩ => ⟨S4x9x2, .f32⟩
  | .hbm, ⟨11, _⟩ => ⟨S4x9x1, .f32⟩
  | .hbm, ⟨12, _⟩ => ⟨S4x9, .f32⟩
  | .hbm, ⟨13, _⟩ => ⟨S_, .f32⟩
  | .hbm, ⟨14, _⟩ => ⟨S4x9, .f32⟩
  | .hbm, ⟨15, _⟩ => ⟨S4x9, .f32⟩
  | .hbm, ⟨16, _⟩ => ⟨S4x9, .f32⟩
  | .hbm, ⟨17, _⟩ => ⟨S4x9x1, .f32⟩
  | .hbm, ⟨18, _⟩ => ⟨S4x9, .f32⟩
  | .hbm, ⟨19, _⟩ => ⟨S_, .f32⟩
  | .hbm, ⟨20, _⟩ => ⟨S4x9, .f32⟩
  | .hbm, ⟨21, _⟩ => ⟨S4x9, .f32⟩
  | .hbm, ⟨22, _⟩ => ⟨S4x9, .f32⟩
  | .hbm, ⟨23, _⟩ => ⟨S4x9, .f32⟩
  | .hbm, ⟨24, _⟩ => ⟨S4x9, .f32⟩
  | .hbm, ⟨25, _⟩ => ⟨S4x9x1x1, .f32⟩
  | .hbm, ⟨26, _⟩ => ⟨S4x9x32x32, .f32⟩
  | .hbm, ⟨27, _⟩ => ⟨S4x9x32x32, .f32⟩
  | .hbm, ⟨28, _⟩ => ⟨S4x9x32x32, .f32⟩
  | .hbm, ⟨29, _⟩ => ⟨S4x9x32x32, .f32⟩
  | .hbm, ⟨30, _⟩ => ⟨S_, .f32⟩
  | .hbm, ⟨31, _⟩ => ⟨S4x9x32x32, .f32⟩
  | .hbm, ⟨32, _⟩ => ⟨S4x9x32x32, .i1⟩
  | .hbm, ⟨33, _⟩ => ⟨S_, .f32⟩
  | .hbm, ⟨34, _⟩ => ⟨S_, .f32⟩
  | .hbm, ⟨35, _⟩ => ⟨S4x9x32x32, .f32⟩
  | .hbm, ⟨36, _⟩ => ⟨S4x9x32x32, .f32⟩
  | .hbm, ⟨37, _⟩ => ⟨S4x9x32x32, .f32⟩
  | .hbm, ⟨38, _⟩ => ⟨S4x1x9216, .f32⟩
  | .hbm, ⟨39, _⟩ => ⟨S4x1x9216, .f32⟩
  | .hbm, ⟨40, _⟩ => ⟨S4x1024x9216, .f32⟩
  | .hbm, ⟨41, _⟩ => ⟨S4x1024x9216, .f32⟩
  | .hbm, ⟨42, _⟩ => ⟨S_, .f32⟩
  | .hbm, ⟨43, _⟩ => ⟨S4x1024, .f32⟩
  | .hbm, ⟨44, _⟩ => ⟨S_, .f32⟩
  | .hbm, ⟨45, _⟩ => ⟨S4x1024, .f32⟩
  | .hbm, ⟨46, _⟩ => ⟨S4x1024, .f32⟩
  | .hbm, ⟨47, _⟩ => ⟨S4x1024x1, .f32⟩
  | .hbm, ⟨48, _⟩ => ⟨S4x1024x9216, .f32⟩
  | .hbm, ⟨49, _⟩ => ⟨S4x1024x9216, .f32⟩
  | .hbm, ⟨50, _⟩ => ⟨S4x1024x9216, .f32⟩
  | .hbm, ⟨51, _⟩ => ⟨S_, .f32⟩
  | .hbm, ⟨52, _⟩ => ⟨S4x1024, .f32⟩
  | .hbm, ⟨53, _⟩ => ⟨S4x1024x1, .f32⟩
  | .hbm, ⟨54, _⟩ => ⟨S4x1024x9216, .f32⟩
  | .hbm, ⟨55, _⟩ => ⟨S4x1024x9216, .f32⟩
  | .hbm, ⟨56, _⟩ => ⟨S4x64x9x32x32, .f32⟩
  | .hbm, ⟨57, _⟩ => ⟨S4x64x9216, .f32⟩
  | .hbm, ⟨58, _⟩ => ⟨S4x9216x64, .f32⟩
  | .hbm, ⟨59, _⟩ => ⟨S4x1024x64, .f32⟩
  | .hbm, ⟨60, _⟩ => ⟨S4x64x1024, .f32⟩
  | .hbm, ⟨61, _⟩ => ⟨S4x64x32x32, .f32⟩
  | _, _ => ⟨S9x4x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  transposes_S9x4x64x32x32_S4x64x9x32x32_1_2_0_3_4 : S9x4x64x32x32.Transposes [1, 2, 0, 3, 4] S4x64x9x32x32
  shapeCasts_S4x64x9x32x32_S4x64x9216 : S4x64x9x32x32.ShapeCasts S4x64x9216
  shapeCasts_S4x64x32x32_S4x64x1024 : S4x64x32x32.ShapeCasts S4x64x1024
  transposes_S4x64x1024_S4x1024x64_0_2_1 : S4x64x1024.Transposes [0, 2, 1] S4x1024x64
  slices_S4x9x2_S4x9x1_0_0_1 : S4x9x2.Slices ![0, 0, 1] S4x9x1
  shapeCasts_S4x9x1_S4x9 : S4x9x1.ShapeCasts S4x9
  bcast_S_S4x9 : S_.BroadcastsInDim S4x9 (![] : Fin 0 → Fin S4x9.rank)
  slices_S4x9x2_S4x9x1_0_0_0 : S4x9x2.Slices ![0, 0, 0] S4x9x1
  bcast_S4x9_S4x9x1x1_0_1 : S4x9.BroadcastsInDim S4x9x1x1 (![0, 1] : Fin 2 → Fin S4x9x1x1.rank)
  bcast_S4x9x1x1_S4x9x32x32_0_1_2_3 : S4x9x1x1.BroadcastsInDim S4x9x32x32 (![0, 1, 2, 3] : Fin 4 → Fin S4x9x32x32.rank)
  bcast_S4x1x32x32_S4x9x32x32_0_1_2_3 : S4x1x32x32.BroadcastsInDim S4x9x32x32 (![0, 1, 2, 3] : Fin 4 → Fin S4x9x32x32.rank)
  bcast_S_S4x9x32x32 : S_.BroadcastsInDim S4x9x32x32 (![] : Fin 0 → Fin S4x9x32x32.rank)
  shapeCasts_S4x9x32x32_S4x1x9216 : S4x9x32x32.ShapeCasts S4x1x9216
  bcast_S4x1x9216_S4x1024x9216_0_1_2 : S4x1x9216.BroadcastsInDim S4x1024x9216 (![0, 1, 2] : Fin 3 → Fin S4x1024x9216.rank)
  reducesTo_S4x1024x9216_S4x1024_d2 : S4x1024x9216.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x9216_0_1_2 : S4x1024x1.BroadcastsInDim S4x1024x9216 (![0, 1, 2] : Fin 3 → Fin S4x1024x9216.rank)
  transposes_S4x64x9216_S4x9216x64_0_2_1 : S4x64x9216.Transposes [0, 2, 1] S4x9216x64
  transposes_S4x1024x64_S4x64x1024_0_2_1 : S4x1024x64.Transposes [0, 2, 1] S4x64x1024
  shapeCasts_S4x64x1024_S4x64x32x32 : S4x64x1024.ShapeCasts S4x64x32x32
  dot_S4x1024x64_S4x64x9216_S4x1024x9216_2_1_1_2_0_0_wf : DotDims.WF S4x1024x64 S4x64x9216 S4x1024x9216 [2] [1] [1] [2] [0] [0]
  dot_S4x1024x9216_S4x9216x64_S4x1024x64_2_1_1_2_0_0_wf : DotDims.WF S4x1024x9216 S4x9216x64 S4x1024x64 [2] [1] [1] [2] [0] [0]

variable [Facts₀]

def dot_S4x1024x64_S4x64x9216_S4x1024x9216_2_1_1_2_0_0 : DotDims S4x1024x64 S4x64x9216 S4x1024x9216 where
  lhsContracting := [2]
  rhsContracting := [1]
  lhsNonContracting := [1]
  rhsNonContracting := [2]
  lhsBatch := [0]
  rhsBatch := [0]
  wf := dot_S4x1024x64_S4x64x9216_S4x1024x9216_2_1_1_2_0_0_wf
def dot_S4x1024x9216_S4x9216x64_S4x1024x64_2_1_1_2_0_0 : DotDims S4x1024x9216 S4x9216x64 S4x1024x64 where
  lhsContracting := [2]
  rhsContracting := [1]
  lhsNonContracting := [1]
  rhsNonContracting := [2]
  lhsBatch := [0]
  rhsBatch := [0]
  wf := dot_S4x1024x9216_S4x9216x64_S4x1024x64_2_1_1_2_0_0_wf

class Facts : Prop extends Facts₀ where

variable [Facts]
-- ==== Proof.Spec.lean ====
/-
  The mathematics both programs are measured against, over plain coordinate functions on the extended reals.

  One attention row: a query position `q` of one batch scores every key position `(s, j)` — frame `s` of nine,
  pixel `j` of 1024 — by a dot product plus an additive mask (`0` or `-∞`), and returns the softmax-weighted
  sum of that key position's values, channel by channel.

  * `softmaxOut` is the textbook form: subtract the row maximum, exponentiate, normalise by the row sum, then
    weigh the values.
  * `onlineOut` is the streaming form: the frames are visited one after the other, carrying the running
    maximum `m`, the running normaliser `l` and the running weighted sum `a`, both rescaled by
    `exp (m_old - m_new)` whenever the maximum moves; a running maximum still at `-∞` (every key so far masked)
    is replaced by `0` in the exponents so that nothing is subtracted from `-∞`.

  That the two agree on rows with at least one unmasked key is proved in OnlineSoftmax.lean.
-/
import Idealize.ShloMosaic.PureOps.Ideal
import Idealize.ShloMosaic.Lib.ValueIdx
import Mathlib.Algebra.BigOperators.Fin
import Mathlib.Order.Fin.Basic

noncomputable section

namespace Cert.Attn

open Idealize.ShloMosaic

/-- The running maximum with `-∞` (and `+∞`) replaced by `0`: what the streaming form subtracts. -/
def safe (m : EReal) : EReal := if max m (-m) = ⊤ then 0 else m

/-- The largest score of one frame (`-∞` for a frame with every key masked). -/
def frameMax (x : Fin 1024 → EReal) : EReal := Finset.univ.sup x

/-- The running maximum after one more frame. -/
def stepM (m : EReal) (x : Fin 1024 → EReal) : EReal := max m (frameMax x)

/-- The running normaliser after one more frame: the old one rescaled to the new maximum, plus the frame's weights. -/
def stepL (m l : EReal) (x : Fin 1024 → EReal) : EReal :=
  Ideal.exp (m - safe (stepM m x)) * l + ∑ j, Ideal.exp (x j - safe (stepM m x))

/-- The running weighted sum after one more frame, likewise. -/
def stepA (m a : EReal) (x v : Fin 1024 → EReal) : EReal :=
  Ideal.exp (m - safe (stepM m x)) * a + ∑ j, Ideal.exp (x j - safe (stepM m x)) * v j

/-- The carried triple (maximum, normaliser, weighted sum) before frame `s`, from `(-∞, 0, 0)`. -/
def onl (x v : Fin 9 → Fin 1024 → EReal) : ℕ → EReal × EReal × EReal
  | 0 => (⊥, 0, 0)
  | s + 1 =>
    if h : s < 9 then
      (stepM (onl x v s).1 (x ⟨s, h⟩), stepL (onl x v s).1 (onl x v s).2.1 (x ⟨s, h⟩),
        stepA (onl x v s).1 (onl x v s).2.2 (x ⟨s, h⟩) (v ⟨s, h⟩))
    else onl x v s

/-- The streaming form's result: weighted sum over normaliser after all nine frames. -/
def onlineOut (x v : Fin 9 → Fin 1024 → EReal) : EReal := Ideal.div (onl x v 9).2.2 (onl x v 9).2.1

/-- The row maximum over every key position. -/
def rowMax (x : Fin 9 → Fin 1024 → EReal) : EReal := Finset.univ.sup fun sj : Fin 9 × Fin 1024 => x sj.1 sj.2

/-- The row's normaliser: the sum of the shifted exponentials. -/
def rowSum (x : Fin 9 → Fin 1024 → EReal) : EReal := ∑ s, ∑ j, Ideal.exp (x s j - rowMax x)

/-- The textbook form's result. -/
def softmaxOut (x v : Fin 9 → Fin 1024 → EReal) : EReal :=
  ∑ s, ∑ j, Ideal.div (Ideal.exp (x s j - rowMax x)) (rowSum x) * v s j

/-- The score of key position `(s, j)` for one query: the dot product over the 64 channels, plus the mask. -/
def score (qv : Fin 64 → EReal) (kv : Fin 9 → Fin 64 → Fin 1024 → EReal) (β : Fin 9 → Fin 1024 → EReal)
    (s : Fin 9) (j : Fin 1024) : EReal := (∑ c, qv c * kv s c j) + β s j

/-! ## The arrays

The arguments as plain functions of their coordinates: keys and values `[frame, batch, channel, row, column]`, the query
and the result `[batch, channel, row, column]`, the additive mask `[batch, 0, frame · 1024 + pixel]`; a pixel `j` of 1024
is `(row, column) = (j / 32, j % 32)`. -/

open Idealize.ShloMosaic.ValueIdx

abbrev SArr5 : Shape := ⟨5, ![9, 4, 64, 32, 32]⟩
abbrev SArr4 : Shape := ⟨4, ![4, 64, 32, 32]⟩
abbrev SBias : Shape := ⟨3, ![4, 1, 9216]⟩

/-- A pixel's row. -/
def pixH (j : Fin 1024) : Fin 32 := ⟨j.val / 32, by omega⟩
/-- A pixel's column. -/
def pixW (j : Fin 1024) : Fin 32 := ⟨j.val % 32, by omega⟩
/-- The pixel at a row and a column. -/
def pix (h w : Fin 32) : Fin 1024 := ⟨h.val * 32 + w.val, by omega⟩
/-- Key position `(frame, pixel)` in the flattened key axis. -/
def keyPos (s : Fin 9) (j : Fin 1024) : Fin 9216 := ⟨s.val * 1024 + j.val, by omega⟩

/-- The scores of query pixel `q` of batch `b` against every key position. -/
def rowScore (keys : SArr5.Idx → EReal) (query : SArr4.Idx → EReal) (bias : SBias.Idx → EReal) (b : Fin 4) (q : Fin 1024) :
    Fin 9 → Fin 1024 → EReal :=
  score (fun c => query (ix4 b c (pixH q) (pixW q))) (fun s c j => keys (ix5 s b c (pixH j) (pixW j)))
    (fun s j => bias (ix3 b 0 (keyPos s j)))

/-- Channel `c` of batch `b`'s values at every key position. -/
def rowVals (vals : SArr5.Idx → EReal) (b : Fin 4) (c : Fin 64) : Fin 9 → Fin 1024 → EReal :=
  fun s j => vals (ix5 s b c (pixH j) (pixW j))

/-- The attention output in the textbook form, as one function of the argument arrays and the mask. -/
def attnSpec (keys vals : SArr5.Idx → EReal) (query : SArr4.Idx → EReal) (bias : SBias.Idx → EReal) : SArr4.Idx → EReal :=
  fun i => softmaxOut (rowScore keys query bias (i 0) (pix (i 2) (i 3))) (rowVals vals (i 0) (i 1))

/-- The attention output in the streaming form. -/
def attnOnline (keys vals : SArr5.Idx → EReal) (query : SArr4.Idx → EReal) (bias : SBias.Idx → EReal) : SArr4.Idx → EReal :=
  fun i => onlineOut (rowScore keys query bias (i 0) (pix (i 2) (i 3))) (rowVals vals (i 0) (i 1))

end Cert.Attn

end
-- ==== Proof.OnlineSoftmax.lean ====
/-
  The streaming softmax agrees with the textbook softmax on a row that has at least one unmasked key.

  Every score is a real or `-∞`, every value a real. Against a real maximum `μ` the weight of a score `y` is
  `exp (y - μ)`, read as `0` at `-∞`. The textbook form is then `(Σ w·v) / (Σ w)` in the reals, with `μ` the row
  maximum. The streaming form carries, before frame `s`, the maximum of the frames done, and the two sums over the
  frames done taken against the real part of that maximum (`0` while it is still `-∞`, where both sums vanish);
  one more frame rescales both by `exp (μ_old - μ_new)`, which turns every old weight into the new one. After the
  ninth frame the carried maximum is the row maximum and the two carried sums are the textbook ones.
-/
import proofs.«420717_j13408887898646_3_alg».proof.Proof.Spec

noncomputable section

namespace Cert.Attn

open Idealize.ShloMosaic

/-- A real finite sum, read in the extended reals, is the sum of the terms read there. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of a score `y` against a real maximum `μ`: `exp (y - μ)`, and `0` for a masked score. -/
def wt (μ : ℝ) (y : EReal) : ℝ := if y = ⊥ then 0 else Real.exp (y.toReal - μ)

theorem wt_bot (μ : ℝ) : wt μ ⊥ = 0 := by simp [wt]

theorem wt_coe (μ r : ℝ) : wt μ (r : EReal) = Real.exp (r - μ) := by
  simp [wt, EReal.coe_ne_bot]

theorem wt_nonneg (μ : ℝ) (y : EReal) : 0 ≤ wt μ y := by
  unfold wt; split_ifs
  · exact le_rfl
  · exact (Real.exp_pos _).le

theorem wt_pos (μ : ℝ) {y : EReal} (hy : y ≠ ⊥) : 0 < wt μ y := by
  unfold wt; rw [if_neg hy]; exact Real.exp_pos _

/-- Moving the maximum from `μ` to `μ'` rescales every weight by `exp (μ - μ')`. -/
theorem wt_rescale (μ μ' : ℝ) (y : EReal) : Real.exp (μ - μ') * wt μ y = wt μ' y := by
  unfold wt; split_ifs
  · exact mul_zero _
  · rw [← Real.exp_add]; congr 1; ring

/-- The shifted exponential of a score that is not `+∞` is its weight. -/
theorem exp_sub_coe (μ : ℝ) {y : EReal} (hy : y ≠ ⊤) : Ideal.exp (y - (μ : EReal)) = (wt μ y : EReal) := by
  induction y using EReal.rec with
  | bot => rw [EReal.bot_sub, Ideal.exp_bot, wt_bot, EReal.coe_zero]
  | coe r => rw [← EReal.coe_sub, Ideal.exp_coe, wt_coe]
  | top => exact absurd rfl hy

/-- What the streaming form subtracts is the real part of the maximum (`0` at the infinities). -/
theorem safe_eq (m : EReal) : safe m = ((m.toReal : ℝ) : EReal) := by
  induction m using EReal.rec with
  | bot => simp [safe]
  | coe r =>
    have h : max (r : EReal) (-(r : EReal)) ≠ ⊤ := by
      rcases max_choice (r : EReal) (-(r : EReal)) with h | h <;> rw [h]
      · exact EReal.coe_ne_top _
      · rw [← EReal.coe_neg]; exact EReal.coe_ne_top _
    rw [safe, if_neg h, EReal.toReal_coe]
  | top => simp [safe]

/-! ## The frames done so far -/

/-- The frames before frame `s`. -/
def pre (s : ℕ) : Finset (Fin 9) := Finset.univ.filter fun s' => s'.val < s

theorem pre_zero : pre 0 = ∅ := by
  ext a; simp [pre]

theorem pre_succ (s : ℕ) (h : s < 9) : pre (s + 1) = insert ⟨s, h⟩ (pre s) := by
  ext a; simp only [pre, Finset.mem_filter, Finset.mem_univ, true_and, Finset.mem_insert, Fin.ext_iff]; omega

theorem not_mem_pre (s : ℕ) (h : s < 9) : (⟨s, h⟩ : Fin 9) ∉ pre s := by
  simp [pre]

theorem pre_nine : pre 9 = Finset.univ := by
  ext a; simp only [pre, Finset.mem_filter, Finset.mem_univ, true_and, iff_true]; exact a.isLt

/-- The largest score among the frames before `s`. -/
def preMax (x : Fin 9 → Fin 1024 → EReal) (s : ℕ) : EReal := (pre s).sup fun s' => frameMax (x s')

/-- The sum of the weights of the frames before `s`, against the maximum `μ`. -/
def preL (x : Fin 9 → Fin 1024 → EReal) (μ : ℝ) (s : ℕ) : ℝ := ∑ s' ∈ pre s, ∑ j, wt μ (x s' j)

/-- The weighted sum of the values of the frames before `s`, against the maximum `μ`. -/
def preA (x v : Fin 9 → Fin 1024 → EReal) (μ : ℝ) (s : ℕ) : ℝ :=
  ∑ s' ∈ pre s, ∑ j, wt μ (x s' j) * (v s' j).toReal

theorem preMax_zero (x : Fin 9 → Fin 1024 → EReal) : preMax x 0 = ⊥ := by
  rw [preMax, pre_zero, Finset.sup_empty]

theorem preMax_succ (x : Fin 9 → Fin 1024 → EReal) (s : ℕ) (h : s < 9) :
    preMax x (s + 1) = stepM (preMax x s) (x ⟨s, h⟩) := by
  rw [preMax, pre_succ s h, Finset.sup_insert, stepM, max_comm]; rfl

theorem preL_zero (x : Fin 9 → Fin 1024 → EReal) (μ : ℝ) : preL x μ 0 = 0 := by
  rw [preL, pre_zero, Finset.sum_empty]

theorem preA_zero (x v : Fin 9 → Fin 1024 → EReal) (μ : ℝ) : preA x v μ 0 = 0 := by
  rw [preA, pre_zero, Finset.sum_empty]

theorem preL_succ (x : Fin 9 → Fin 1024 → EReal) (μ : ℝ) (s : ℕ) (h : s < 9) :
    preL x μ (s + 1) = preL x μ s + ∑ j, wt μ (x ⟨s, h⟩ j) := by
  rw [preL, pre_succ s h, Finset.sum_insert (not_mem_pre s h), add_comm]; rfl

theorem preA_succ (x v : Fin 9 → Fin 1024 → EReal) (μ : ℝ) (s : ℕ) (h : s < 9) :
    preA x v μ (s + 1) = preA x v μ s + ∑ j, wt μ (x ⟨s, h⟩ j) * (v ⟨s, h⟩ j).toReal := by
  rw [preA, pre_succ s h, Finset.sum_insert (not_mem_pre s h), add_comm]; rfl

theorem le_frameMax (y : Fin 1024 → EReal) (j : Fin 1024) : y j ≤ frameMax y :=
  Finset.le_sup (f := y) (Finset.mem_univ j)

theorem le_preMax (x : Fin 9 → Fin 1024 → EReal) {s : ℕ} {s' : Fin 9} (hs : s' ∈ pre s) (j : Fin 1024) :
    x s' j ≤ preMax x s :=
  (le_frameMax (x s') j).trans (Finset.le_sup (f := fun s' => frameMax (x s')) hs)

theorem frameMax_ne_top {y : Fin 1024 → EReal} (hy : ∀ j, y j ≠ ⊤) : frameMax y ≠ ⊤ := by
  rw [← lt_top_iff_ne_top, frameMax, Finset.sup_lt_iff (by exact bot_lt_top)]
  intro j _; exact lt_top_iff_ne_top.mpr (hy j)

theorem preMax_ne_top {x : Fin 9 → Fin 1024 → EReal} (hx : ∀ s j, x s j ≠ ⊤) (s : ℕ) : preMax x s ≠ ⊤ := by
  rw [← lt_top_iff_ne_top, preMax, Finset.sup_lt_iff (by exact bot_lt_top)]
  intro s' _; exact lt_top_iff_ne_top.mpr (frameMax_ne_top (hx s'))

/-- An extended real that is not `+∞` is `-∞` or a real. -/
theorem eq_bot_or_coe {m : EReal} (hm : m ≠ ⊤) : m = ⊥ ∨ ∃ μ : ℝ, m = (μ : EReal) := by
  induction m using EReal.rec with
  | bot => exact Or.inl rfl
  | coe r => exact Or.inr ⟨r, rfl⟩
  | top => exact absurd rfl hm

/-- Rescaling the carried normaliser from the old maximum to any new one. -/
theorem preL_rescale {x : Fin 9 → Fin 1024 → EReal} (hx : ∀ s j, x s j ≠ ⊤) (μ' : ℝ) (s : ℕ) :
    wt μ' (preMax x s) * preL x (preMax x s).toReal s = preL x μ' s := by
  rcases eq_bot_or_coe (preMax_ne_top hx s) with h | ⟨μ, h⟩
  · have hb : ∀ s' ∈ pre s, ∀ j, x s' j = ⊥ := fun s' hs j => le_bot_iff.mp (h ▸ le_preMax x hs j)
    rw [h, wt_bot, zero_mul, preL]
    symm; apply Finset.sum_eq_zero; intro s' hs
    apply Finset.sum_eq_zero; intro j _
    rw [hb s' hs j, wt_bot]
  · rw [h, wt_coe, EReal.toReal_coe, preL, preL, Finset.mul_sum]
    apply Finset.sum_congr rfl; intro s' _
    rw [Finset.mul_sum]
    apply Finset.sum_congr rfl; intro j _
    exact wt_rescale μ μ' _

/-- Rescaling the carried weighted sum likewise. -/
theorem preA_rescale {x : Fin 9 → Fin 1024 → EReal} (hx : ∀ s j, x s j ≠ ⊤) (v : Fin 9 → Fin 1024 → EReal) (μ' : ℝ)
    (s : ℕ) : wt μ' (preMax x s) * preA x v (preMax x s).toReal s = preA x v μ' s := by
  rcases eq_bot_or_coe (preMax_ne_top hx s) with h | ⟨μ, h⟩
  · have hb : ∀ s' ∈ pre s, ∀ j, x s' j = ⊥ := fun s' hs j => le_bot_iff.mp (h ▸ le_preMax x hs j)
    rw [h, wt_bot, zero_mul, preA]
    symm; apply Finset.sum_eq_zero; intro s' hs
    apply Finset.sum_eq_zero; intro j _
    rw [hb s' hs j, wt_bot, zero_mul]
  · rw [h, wt_coe, EReal.toReal_coe, preA, preA, Finset.mul_sum]
    apply Finset.sum_congr rfl; intro s' _
    rw [Finset.mul_sum]
    apply Finset.sum_congr rfl; intro j _
    rw [← mul_assoc, wt_rescale μ μ' _]

/-! ## One frame more -/

theorem stepL_pre {x : Fin 9 → Fin 1024 → EReal} (hx : ∀ s j, x s j ≠ ⊤) (s : ℕ) (h : s < 9) :
    stepL (preMax x s) ((preL x (preMax x s).toReal s : ℝ) : EReal) (x ⟨s, h⟩)
      = ((preL x (preMax x (s + 1)).toReal (s + 1) : ℝ) : EReal) := by
  rw [stepL, safe_eq, ← preMax_succ x s h]
  generalize (preMax x (s + 1)).toReal = μ'
  rw [exp_sub_coe μ' (preMax_ne_top hx s),
    Finset.sum_congr rfl (fun j _ => exp_sub_coe μ' (hx ⟨s, h⟩ j)),
    ← coe_finset_sum, ← EReal.coe_mul, ← EReal.coe_add, preL_rescale hx, preL_succ x μ' s h]

theorem stepA_pre {x v : Fin 9 → Fin 1024 → EReal} (hx : ∀ s j, x s j ≠ ⊤) (hv : ∀ s j, v s j ≠ ⊥ ∧ v s j ≠ ⊤)
    (s : ℕ) (h : s < 9) :
    stepA (preMax x s) ((preA x v (preMax x s).toReal s : ℝ) : EReal) (x ⟨s, h⟩) (v ⟨s, h⟩)
      = ((preA x v (preMax x (s + 1)).toReal (s + 1) : ℝ) : EReal) := by
  rw [stepA, safe_eq, ← preMax_succ x s h]
  generalize (preMax x (s + 1)).toReal = μ'
  have hterm : ∀ j ∈ (Finset.univ : Finset (Fin 1024)),
      Ideal.exp (x ⟨s, h⟩ j - (μ' : EReal)) * v ⟨s, h⟩ j
        = ((wt μ' (x ⟨s, h⟩ j) * (v ⟨s, h⟩ j).toReal : ℝ) : EReal) := by
    intro j _
    rw [exp_sub_coe μ' (hx ⟨s, h⟩ j), EReal.coe_mul, EReal.coe_toReal (hv _ j).2 (hv _ j).1]
  rw [exp_sub_coe μ' (preMax_ne_top hx s), Finset.sum_congr rfl hterm,
    ← coe_finset_sum, ← EReal.coe_mul, ← EReal.coe_add, preA_rescale hx, preA_succ x v μ' s h]

/-- The carried triple before frame `s`: the maximum so far, and the normaliser and the weighted sum so far against
    the real part of that maximum. -/
theorem onl_eq {x v : Fin 9 → Fin 1024 → EReal} (hx : ∀ s j, x s j ≠ ⊤) (hv : ∀ s j, v s j ≠ ⊥ ∧ v s j ≠ ⊤) :
    ∀ s : ℕ, s ≤ 9 → onl x v s = (preMax x s, ((preL x (preMax x s).toReal s : ℝ) : EReal),
      ((preA x v (preMax x s).toReal s : ℝ) : EReal)) := by
  intro s
  induction s with
  | zero =>
    intro _
    rw [onl, preMax_zero, preL_zero, preA_zero, EReal.coe_zero]
  | succ s ih =>
    intro hs
    have h : s < 9 := by omega
    rw [onl, dif_pos h, ih (by omega)]
    refine Prod.ext ?_ (Prod.ext ?_ ?_)
    · exact (preMax_succ x s h).symm
    · exact stepL_pre hx s h
    · exact stepA_pre hx hv s h

/-! ## The whole row -/

theorem preMax_nine (x : Fin 9 → Fin 1024 → EReal) : preMax x 9 = rowMax x := by
  rw [rowMax, ← Finset.univ_product_univ, Finset.sup_product_left, preMax, pre_nine]; rfl

theorem rowMax_ne_top {x : Fin 9 → Fin 1024 → EReal} (hx : ∀ s j, x s j ≠ ⊤) : rowMax x ≠ ⊤ :=
  preMax_nine x ▸ preMax_ne_top hx 9

theorem rowMax_ne_bot {x : Fin 9 → Fin 1024 → EReal} (hex : ∃ s j, x s j ≠ ⊥) : rowMax x ≠ ⊥ := by
  obtain ⟨s, j, h⟩ := hex
  intro hb
  apply h
  have hle : x s j ≤ rowMax x :=
    Finset.le_sup (f := fun sj : Fin 9 × Fin 1024 => x sj.1 sj.2) (Finset.mem_univ (s, j))
  exact le_bot_iff.mp (hb ▸ hle)

/-- The sum of every weight of the row, against the maximum `μ`. -/
def sumW (x : Fin 9 → Fin 1024 → EReal) (μ : ℝ) : ℝ := ∑ s, ∑ j, wt μ (x s j)

/-- The weighted sum of every value of the row, against the maximum `μ`. -/
def sumWV (x v : Fin 9 → Fin 1024 → EReal) (μ : ℝ) : ℝ := ∑ s, ∑ j, wt μ (x s j) * (v s j).toReal

theorem preL_nine (x : Fin 9 → Fin 1024 → EReal) (μ : ℝ) : preL x μ 9 = sumW x μ := by
  rw [preL, pre_nine, sumW]

theorem preA_nine (x v : Fin 9 → Fin 1024 → EReal) (μ : ℝ) : preA x v μ 9 = sumWV x v μ := by
  rw [preA, pre_nine, sumWV]

theorem sumW_pos {x : Fin 9 → Fin 1024 → EReal} (hex : ∃ s j, x s j ≠ ⊥) (μ : ℝ) : 0 < sumW x μ := by
  obtain ⟨s0, j0, h0⟩ := hex
  calc 0 < wt μ (x s0 j0) := wt_pos μ h0
    _ ≤ ∑ j, wt μ (x s0 j) :=
      Finset.single_le_sum (f := fun j => wt μ (x s0 j)) (fun j _ => wt_nonneg μ _) (Finset.mem_univ j0)
    _ ≤ sumW x μ :=
      Finset.single_le_sum (f := fun s => ∑ j, wt μ (x s j))
        (fun s _ => Finset.sum_nonneg fun j _ => wt_nonneg μ _) (Finset.mem_univ s0)

theorem rowSum_eq {x : Fin 9 → Fin 1024 → EReal} (hx : ∀ s j, x s j ≠ ⊤) {μ : ℝ} (hμ : rowMax x = (μ : EReal)) :
    rowSum x = ((sumW x μ : ℝ) : EReal) := by
  rw [rowSum, hμ, sumW, coe_finset_sum]
  apply Finset.sum_congr rfl; intro s _
  rw [coe_finset_sum]
  apply Finset.sum_congr rfl; intro j _
  exact exp_sub_coe μ (hx s j)

theorem softmaxOut_eq {x v : Fin 9 → Fin 1024 → EReal} (hx : ∀ s j, x s j ≠ ⊤) (hv : ∀ s j, v s j ≠ ⊥ ∧ v s j ≠ ⊤)
    {μ : ℝ} (hμ : rowMax x = (μ : EReal)) (hS : sumW x μ ≠ 0) :
    softmaxOut x v = ((∑ s, ∑ j, wt μ (x s j) * (1 / sumW x μ) * (v s j).toReal : ℝ) : EReal) := by
  rw [softmaxOut, rowSum_eq hx hμ, hμ, coe_finset_sum]
  apply Finset.sum_congr rfl; intro s _
  rw [coe_finset_sum]
  apply Finset.sum_congr rfl; intro j _
  rw [Ideal.div_coe hS, exp_sub_coe μ (hx s j), EReal.coe_mul, EReal.coe_mul,
    EReal.coe_toReal (hv s j).2 (hv s j).1]

theorem onlineOut_eq {x v : Fin 9 → Fin 1024 → EReal} (hx : ∀ s j, x s j ≠ ⊤) (hv : ∀ s j, v s j ≠ ⊥ ∧ v s j ≠ ⊤)
    {μ : ℝ} (hμ : rowMax x = (μ : EReal)) (hS : sumW x μ ≠ 0) :
    onlineOut x v = ((sumWV x v μ * (1 / sumW x μ) : ℝ) : EReal) := by
  rw [onlineOut, onl_eq hx hv 9 le_rfl]
  show Ideal.div ((preA x v (preMax x 9).toReal 9 : ℝ) : EReal) ((preL x (preMax x 9).toReal 9 : ℝ) : EReal) = _
  rw [preMax_nine, hμ, EReal.toReal_coe, preL_nine, preA_nine, Ideal.div_coe hS, EReal.coe_mul]

/-- On a row whose scores are real or `-∞`, not all `-∞`, against real values, the streaming form's result is the
    textbook form's. -/
theorem online_eq_softmax (x v : Fin 9 → Fin 1024 → EReal) (hx : ∀ s j, x s j ≠ ⊤) (hex : ∃ s j, x s j ≠ ⊥)
    (hv : ∀ s j, v s j ≠ ⊥ ∧ v s j ≠ ⊤) : onlineOut x v = softmaxOut x v := by
  obtain ⟨μ, hμ⟩ := (eq_bot_or_coe (rowMax_ne_top hx)).resolve_left (rowMax_ne_bot hex)
  have hS : sumW x μ ≠ 0 := (sumW_pos hex μ).ne'
  rw [onlineOut_eq hx hv hμ hS, softmaxOut_eq hx hv hμ hS, sumWV, Finset.sum_mul]
  congr 1
  apply Finset.sum_congr rfl; intro s _
  rw [Finset.sum_mul]
  apply Finset.sum_congr rfl; intro j _
  ring

/-! ## The scores -/

/-- A dot product of real vectors is real. -/
theorem dot_eq_coe {n : ℕ} (p k : Fin n → EReal) (hp : ∀ c, p c ≠ ⊥ ∧ p c ≠ ⊤) (hk : ∀ c, k c ≠ ⊥ ∧ k c ≠ ⊤) :
    ∑ c, p c * k c = ((∑ c, (p c).toReal * (k c).toReal : ℝ) : EReal) := by
  rw [coe_finset_sum]
  apply Finset.sum_congr rfl; intro c _
  rw [EReal.coe_mul, EReal.coe_toReal (hp c).2 (hp c).1, EReal.coe_toReal (hk c).2 (hk c).1]

/-- A score is never `+∞`: a real dot product plus a mask entry that is `0` or `-∞`. -/
theorem score_ne_top (qv : Fin 64 → EReal) (kv : Fin 9 → Fin 64 → Fin 1024 → EReal) (β : Fin 9 → Fin 1024 → EReal)
    (hq : ∀ c, qv c ≠ ⊥ ∧ qv c ≠ ⊤) (hk : ∀ s c j, kv s c j ≠ ⊥ ∧ kv s c j ≠ ⊤) (hβ : ∀ s j, β s j = 0 ∨ β s j = ⊥)
    (s : Fin 9) (j : Fin 1024) : score qv kv β s j ≠ ⊤ := by
  rw [score, dot_eq_coe qv (fun c => kv s c j) hq (fun c => hk s c j)]
  rcases hβ s j with h | h <;> rw [h]
  · rw [add_zero]; exact EReal.coe_ne_top _
  · rw [EReal.add_bot]; exact bot_ne_top

/-- At an unmasked key position the score is real. -/
theorem score_ne_bot (qv : Fin 64 → EReal) (kv : Fin 9 → Fin 64 → Fin 1024 → EReal) (β : Fin 9 → Fin 1024 → EReal)
    (hq : ∀ c, qv c ≠ ⊥ ∧ qv c ≠ ⊤) (hk : ∀ s c j, kv s c j ≠ ⊥ ∧ kv s c j ≠ ⊤)
    (s : Fin 9) (j : Fin 1024) (h0 : β s j = 0) : score qv kv β s j ≠ ⊥ := by
  rw [score, dot_eq_coe qv (fun c => kv s c j) hq (fun c => hk s c j), h0, add_zero]
  exact EReal.coe_ne_bot _

end Cert.Attn

end
-- ==== Proof.Bridge.lean ====
/-
  Under what the precondition says — the keys, the values and the query real everywhere, every mask entry `0` or `-∞`, and in
  every batch a key position whose mask entry is `0` — the streaming attention of the arrays is the textbook attention.
-/
import proofs.«420717_j13408887898646_3_alg».proof.Proof.Spec
import proofs.«420717_j13408887898646_3_alg».proof.Proof.OnlineSoftmax

noncomputable section

namespace Cert.Attn

open Idealize.ShloMosaic Idealize.ShloMosaic.ValueIdx

/-- Row by row: each row's scores are real or `-∞` (a real dot product plus `0` or `-∞`), real at the batch's unmasked key
    position, and the values are real, so the two forms of the softmax agree on the row. -/
theorem attnOnline_eq_attnSpec (keys vals : SArr5.Idx → EReal) (query : SArr4.Idx → EReal) (bias : SBias.Idx → EReal)
    (hk : ∀ i, keys i ≠ ⊥ ∧ keys i ≠ ⊤) (hv : ∀ i, vals i ≠ ⊥ ∧ vals i ≠ ⊤) (hq : ∀ i, query i ≠ ⊥ ∧ query i ≠ ⊤)
    (hb : ∀ i, bias i = 0 ∨ bias i = ⊥) (hex : ∀ b : Fin 4, ∃ (s : Fin 9) (j : Fin 1024), bias (ix3 b 0 (keyPos s j)) = 0) :
    attnOnline keys vals query bias = attnSpec keys vals query bias := by
  funext i
  unfold attnOnline attnSpec rowScore rowVals
  refine online_eq_softmax _ _ ?_ ?_ ?_
  · intro s j
    exact score_ne_top _ _ _ (fun c => hq _) (fun s c j => hk _) (fun s j => hb _) s j
  · obtain ⟨s, j, h0⟩ := hex (i 0)
    exact ⟨s, j, score_ne_bot _ _ _ (fun c => hq _) (fun s c j => hk _) s j h0⟩
  · intro s j
    exact hv _

end Cert.Attn

end
-- ==== Proof.RefValue.lean ====
/-
  The reference's result, read one operation at a time, is the textbook attention of the argument arrays and its own mask.
-/
import proofs.«420717_j13408887898646_3_alg».proof.Proof.Gen.ReferenceIdeal.Read
import proofs.«420717_j13408887898646_3_alg».proof.Proof.Spec
import Idealize.ShloMosaic.PureOps.Ideal.Laws
import Idealize.ShloMosaic.Lib.ValueIdx
import Idealize.ShloMosaic.Lib.Pipeline.Value
import Mathlib.Data.Finset.Lattice.Fold
import Mathlib.Data.Finset.BooleanAlgebra

noncomputable section

namespace Cert.Attn.Ref

open Cert.ReferenceIdeal Idealize.ShloMosaic Idealize.ShloMosaic.ValueIdx Cert.Attn

/-! ## Key positions are pairs (frame, pixel) -/

/-- The flattened key axis is the product of the nine frames and the 1024 pixels, through keyPos. -/
def keyEquiv : Fin 9 × Fin 1024 ≃ Fin 9216 where
  toFun p := keyPos p.1 p.2
  invFun k := (⟨k.val / 1024, by have := k.isLt; omega⟩, ⟨k.val % 1024, by omega⟩)
  left_inv p := by
    obtain ⟨s, j⟩ := p
    have hs := s.isLt; have hj := j.isLt
    refine Prod.ext (Fin.ext ?_) (Fin.ext ?_)
    · show (s.val * 1024 + j.val) / 1024 = s.val; omega
    · show (s.val * 1024 + j.val) % 1024 = j.val; omega
  right_inv k := by
    apply Fin.ext
    show k.val / 1024 * 1024 + k.val % 1024 = k.val; omega

/-- A supremum over the flattened key axis is the supremum over (frame, pixel). -/
theorem sup_keys (g : Fin 9216 → EReal) :
    Finset.univ.sup g = Finset.univ.sup fun sj : Fin 9 × Fin 1024 => g (keyPos sj.1 sj.2) := by
  rw [← Finset.map_univ_equiv keyEquiv, Finset.sup_map]; rfl

/-- A sum over the flattened key axis is the double sum over frames and pixels. -/
theorem sum_keys (g : Fin 9216 → EReal) : ∑ k, g k = ∑ s, ∑ j, g (keyPos s j) := by
  rw [← Equiv.sum_comp keyEquiv g, Fintype.sum_prod_type]; rfl

/-! ## The layout operations' composed index maps, on coordinates -/

/-- Query element (b, q, c) of the transposed, flattened query is the query array at (b, c, row of q, column of q). -/
theorem idx_query (b : Fin 4) (q : Fin 1024) (kp : Fin 9216) (c : Fin 64) :
    Read.idx_main_v2 (Read.idx_main_v3 (Read.lidx_main_v4 (ix3 b q kp) c)) = ix4 b c (pixH q) (pixW q) := by
  funext a; apply Fin.ext
  have hb := b.isLt; have hq := q.isLt; have hc := c.isLt
  match a with
  | ⟨0, _⟩ => show ((b.val * 64 + c.val) * 1024 + q.val) / 65536 = b.val; omega
  | ⟨1, _⟩ => show ((b.val * 64 + c.val) * 1024 + q.val) / 1024 % 64 = c.val; omega
  | ⟨2, _⟩ => show ((b.val * 64 + c.val) * 1024 + q.val) / 32 % 32 = q.val / 32; omega
  | ⟨3, _⟩ => show ((b.val * 64 + c.val) * 1024 + q.val) % 32 = q.val % 32; omega

/-- Key element (b, c, key position (s, j)) of the transposed, flattened keys is the key array at (s, b, c, row of j, column of j). -/
theorem idx_keys (b : Fin 4) (q : Fin 1024) (s : Fin 9) (j : Fin 1024) (c : Fin 64) :
    Read.idx_main_v0 (Read.idx_main_v1 (Read.ridx_main_v4 (ix3 b q (keyPos s j)) c)) = ix5 s b c (pixH j) (pixW j) := by
  funext a; apply Fin.ext
  have hb := b.isLt; have hs := s.isLt; have hj := j.isLt; have hc := c.isLt
  match a with
  | ⟨0, _⟩ => show ((b.val * 64 + c.val) * 9216 + (s.val * 1024 + j.val)) / 1024 % 9 = s.val; omega
  | ⟨1, _⟩ => show ((b.val * 64 + c.val) * 9216 + (s.val * 1024 + j.val)) / 589824 = b.val; omega
  | ⟨2, _⟩ => show ((b.val * 64 + c.val) * 9216 + (s.val * 1024 + j.val)) / 9216 % 64 = c.val; omega
  | ⟨3, _⟩ => show ((b.val * 64 + c.val) * 9216 + (s.val * 1024 + j.val)) / 32 % 32 = j.val / 32; omega
  | ⟨4, _⟩ => show ((b.val * 64 + c.val) * 9216 + (s.val * 1024 + j.val)) % 32 = j.val % 32; omega

/-- The mask is broadcast over the queries. -/
theorem idx_bias (b : Fin 4) (q : Fin 1024) (kp : Fin 9216) :
    Read.idx_main_v28 (ix3 b q kp) = ix3 b (0 : Fin 1) kp := by
  funext a
  match a with
  | ⟨0, _⟩ => rfl
  | ⟨1, _⟩ => rfl
  | ⟨2, _⟩ => rfl

/-- The row maximum is broadcast over the keys. -/
theorem idx_rowM (b : Fin 4) (q : Fin 1024) (kp : Fin 9216) :
    Read.idx_main_v33 (Read.idx_main_v34 (ix3 b q kp)) = ix2 b q := by
  funext a
  match a with
  | ⟨0, _⟩ => rfl
  | ⟨1, _⟩ => rfl

/-- The row sum is broadcast over the keys. -/
theorem idx_rowL (b : Fin 4) (q : Fin 1024) (kp : Fin 9216) :
    Read.idx_main_v38 (Read.idx_main_v39 (ix3 b q kp)) = ix2 b q := by
  funext a
  match a with
  | ⟨0, _⟩ => rfl
  | ⟨1, _⟩ => rfl

/-- The sum's operand index at row (b, q) and key k. -/
theorem idx_sum (b : Fin 4) (q : Fin 1024) (k : Fin 9216) :
    Read.idx_main_v37 (ix2 b q) k = ix3 b q k := by
  funext a
  match a with
  | ⟨0, _⟩ => rfl
  | ⟨1, _⟩ => rfl
  | ⟨2, _⟩ => rfl

/-- Value element (b, key position (s, j), c) of the transposed, flattened values is the value array at (s, b, c, row of j, column of j). -/
theorem idx_vals (b : Fin 4) (s : Fin 9) (j : Fin 1024) (c : Fin 64) :
    Read.idx_main_v41 (Read.idx_main_v42 (Read.idx_main_v43 (ix3 b (keyPos s j) c))) = ix5 s b c (pixH j) (pixW j) := by
  funext a; apply Fin.ext
  have hb := b.isLt; have hs := s.isLt; have hj := j.isLt; have hc := c.isLt
  match a with
  | ⟨0, _⟩ => show ((b.val * 64 + c.val) * 9216 + (s.val * 1024 + j.val)) / 1024 % 9 = s.val; omega
  | ⟨1, _⟩ => show ((b.val * 64 + c.val) * 9216 + (s.val * 1024 + j.val)) / 589824 = b.val; omega
  | ⟨2, _⟩ => show ((b.val * 64 + c.val) * 9216 + (s.val * 1024 + j.val)) / 9216 % 64 = c.val; omega
  | ⟨3, _⟩ => show ((b.val * 64 + c.val) * 9216 + (s.val * 1024 + j.val)) / 32 % 32 = j.val / 32; omega
  | ⟨4, _⟩ => show ((b.val * 64 + c.val) * 9216 + (s.val * 1024 + j.val)) % 32 = j.val % 32; omega

/-- The last contraction's left operand index. -/
theorem idx_l44 (b : Fin 4) (q : Fin 1024) (c : Fin 64) (k : Fin 9216) :
    Read.lidx_main_v44 (ix3 b q c) k = ix3 b q k := by
  funext a
  match a with
  | ⟨0, _⟩ => rfl
  | ⟨1, _⟩ => rfl
  | ⟨2, _⟩ => rfl

/-- The last contraction's right operand index. -/
theorem idx_r44 (b : Fin 4) (q : Fin 1024) (c : Fin 64) (k : Fin 9216) :
    Read.ridx_main_v44 (ix3 b q c) k = ix3 b k c := by
  funext a
  match a with
  | ⟨0, _⟩ => rfl
  | ⟨1, _⟩ => rfl
  | ⟨2, _⟩ => rfl

/-- Result element (b, c, h, w) is the contraction's element (b, pixel (h, w), c). -/
theorem idx_out (b : Fin 4) (c : Fin 64) (h w : Fin 32) :
    Read.idx_main_v45 (Read.idx_main_v46 (ix4 b c h w)) = ix3 b (pix h w) c := by
  funext a; apply Fin.ext
  have hb := b.isLt; have hc := c.isLt; have hh := h.isLt; have hw := w.isLt
  match a with
  | ⟨0, _⟩ => show (((b.val * 64 + c.val) * 32 + h.val) * 32 + w.val) / 65536 = b.val; omega
  | ⟨1, _⟩ => show (((b.val * 64 + c.val) * 32 + h.val) * 32 + w.val) % 1024 = h.val * 32 + w.val; omega
  | ⟨2, _⟩ => show (((b.val * 64 + c.val) * 32 + h.val) * 32 + w.val) / 1024 % 64 = c.val; omega

/-- The reduced index (b, q) with key coordinate k put back is (b, q, k). -/
theorem lift_key (h : S4x1024x9216.Reduces [2] S4x1024) (b : Fin 4) (q : Fin 1024) (k : Fin 9216) :
    h.lift (ix2 b q) k = ix3 b q k := by
  funext c; apply Fin.ext
  match c with
  | ⟨0, _⟩ => rfl
  | ⟨1, _⟩ => rfl
  | ⟨2, _⟩ => rfl

/-! ## The stages, one row at a time -/

section Stages

variable (x0 x1 : (⟨S9x4x64x32x32, .f32⟩ : BufTy).Contents (Elt Ideal))
  (x2 : (⟨S4x64x32x32, .f32⟩ : BufTy).Contents (Elt Ideal)) (x3 : (⟨S4x1x32x32, .f32⟩ : BufTy).Contents (Elt Ideal))
  (x4 : (⟨S4x9x2, .i32⟩ : BufTy).Contents (Elt Ideal))

/-- The scores: the contraction over the 64 channels plus the broadcast mask. -/
theorem scores_eq (b : Fin 4) (q : Fin 1024) (s : Fin 9) (j : Fin 1024) :
    Read.val_main_v29 (F := Ideal) x0 x2 x3 x4 (ix3 b q (keyPos s j))
      = rowScore x0 x2 (Read.val_main_v27 (F := Ideal) x3 x4) b q s j := by
  rw [Read.val_main_v29_apply, Read.val_main_v4_apply, Read.val_main_v28_apply, idx_bias]
  simp only [Read.val_main_v3_apply, Read.val_main_v2_apply, Read.val_main_v1_apply, Read.val_main_v0_apply,
    idx_query, idx_keys, Ideal.addf_def]
  rfl

/-- The row maximum: the fold of max from -∞ over the key axis is the supremum over (frame, pixel). -/
theorem rowMax_eq (b : Fin 4) (q : Fin 1024) :
    Read.val_main_v32 (F := Ideal) x0 x2 x3 x4 (ix2 b q)
      = rowMax (rowScore x0 x2 (Read.val_main_v27 (F := Ideal) x3 x4) b q) := by
  have h : S4x1024x9216.Reduces [2] S4x1024 := by decide
  have hbot : Ideal.ofBits .f32 0xFF800000#32 = (⊥ : EReal) := by simp [Ideal.ofBits, Ideal.ieee]
  rw [Read.val_main_v32_apply, Read.val_main_v31_apply, Read.val_main_cst_5_apply]
  unfold Read.val_main_v30
  rw [Host.reduce_eq_fold_single FloatOps.maximumf _ _ Gen.reducesTo_S4x1024x9216_S4x1024_d2 h Gen.h_S_,
    Read.val_main_cst_4_apply]
  show max (Ideal.ofBits .f32 0xFF800000#32)
      ((Finset.univ : Finset (Fin 9216)).sup fun k => Read.val_main_v29 (F := Ideal) x0 x2 x3 x4 (h.lift (ix2 b q) k)) = _
  rw [hbot, max_bot_left, sup_keys]
  unfold rowMax
  refine congrArg (Finset.univ.sup) (funext fun sj => ?_)
  rw [lift_key, scores_eq]

/-- The shifted exponentials. -/
theorem expw_eq (b : Fin 4) (q : Fin 1024) (s : Fin 9) (j : Fin 1024) :
    Read.val_main_v36 (F := Ideal) x0 x2 x3 x4 (ix3 b q (keyPos s j))
      = Ideal.exp (rowScore x0 x2 (Read.val_main_v27 (F := Ideal) x3 x4) b q s j
          - rowMax (rowScore x0 x2 (Read.val_main_v27 (F := Ideal) x3 x4) b q)) := by
  rw [Read.val_main_v36_apply, Read.val_main_v35_apply, Read.val_main_v34_apply, Read.val_main_v33_apply, idx_rowM,
    rowMax_eq, scores_eq]
  rfl

/-- The row sum. -/
theorem rowSum_eq (b : Fin 4) (q : Fin 1024) :
    Read.val_main_v37 (F := Ideal) x0 x2 x3 x4 (ix2 b q)
      = rowSum (rowScore x0 x2 (Read.val_main_v27 (F := Ideal) x3 x4) b q) := by
  rw [Read.val_main_v37_apply, Read.val_main_cst_6_apply, Ideal.ofBits_def, Ideal.ofBits_zero_f32, zero_add, sum_keys]
  unfold rowSum
  refine Finset.sum_congr rfl fun s _ => Finset.sum_congr rfl fun j _ => ?_
  rw [idx_sum, expw_eq]

/-- The normalised weights. -/
theorem weight_eq (b : Fin 4) (q : Fin 1024) (s : Fin 9) (j : Fin 1024) :
    Read.val_main_v40 (F := Ideal) x0 x2 x3 x4 (ix3 b q (keyPos s j))
      = Ideal.div (Ideal.exp (rowScore x0 x2 (Read.val_main_v27 (F := Ideal) x3 x4) b q s j
          - rowMax (rowScore x0 x2 (Read.val_main_v27 (F := Ideal) x3 x4) b q)))
          (rowSum (rowScore x0 x2 (Read.val_main_v27 (F := Ideal) x3 x4) b q)) := by
  rw [Read.val_main_v40_apply, Read.val_main_v39_apply, Read.val_main_v38_apply, idx_rowL, rowSum_eq, expw_eq]
  rfl

/-- The values, transposed and flattened like the keys. -/
theorem vals_eq (b : Fin 4) (s : Fin 9) (j : Fin 1024) (c : Fin 64) :
    Read.val_main_v43 (F := Ideal) x1 (ix3 b (keyPos s j) c) = rowVals x1 b c s j := by
  rw [Read.val_main_v43_apply, Read.val_main_v42_apply, Read.val_main_v41_apply, idx_vals]
  rfl

/-- The weighted sum of the values. -/
theorem out_eq (b : Fin 4) (q : Fin 1024) (c : Fin 64) :
    Read.val_main_v44 (F := Ideal) x0 x1 x2 x3 x4 (ix3 b q c)
      = softmaxOut (rowScore x0 x2 (Read.val_main_v27 (F := Ideal) x3 x4) b q) (rowVals x1 b c) := by
  rw [Read.val_main_v44_apply, sum_keys]
  unfold softmaxOut
  refine Finset.sum_congr rfl fun s _ => Finset.sum_congr rfl fun j _ => ?_
  rw [idx_l44, idx_r44, weight_eq, vals_eq]

end Stages

/-- The reference's last stage is attnSpec of the keys, the values, the query and the reference's own mask array. -/
theorem ref_eq_spec (x0 x1 : (⟨S9x4x64x32x32, .f32⟩ : BufTy).Contents (Elt Ideal))
    (x2 : (⟨S4x64x32x32, .f32⟩ : BufTy).Contents (Elt Ideal)) (x3 : (⟨S4x1x32x32, .f32⟩ : BufTy).Contents (Elt Ideal))
    (x4 : (⟨S4x9x2, .i32⟩ : BufTy).Contents (Elt Ideal)) :
    Read.val_main_v46 (F := Ideal) x0 x1 x2 x3 x4 = attnSpec x0 x1 x2 (Read.val_main_v27 (F := Ideal) x3 x4) := by
  funext i
  obtain ⟨b, c, h, w, rfl⟩ : ∃ (b : Fin 4) (c : Fin 64) (h w : Fin 32), i = ix4 b c h w :=
    ⟨i 0, i 1, i 2, i 3, eq_ix4 i⟩
  rw [Read.val_main_v46_apply, Read.val_main_v45_apply, idx_out, out_eq]
  rfl

end Cert.Attn.Ref

end
-- ==== Proof.BiasPre.lean ====
/-
  What the precondition says of the arguments, and that both programs build the same additive mask.
-/
import proofs.«420717_j13408887898646_3_alg».proof.Defs
import proofs.«420717_j13408887898646_3_alg».proof.Proof.Gen.KernelIdeal.Frame
import proofs.«420717_j13408887898646_3_alg».proof.Proof.Gen.ReferenceIdeal.Read
import proofs.«420717_j13408887898646_3_alg».proof.Proof.Gen.Pre_finite_inputs
import proofs.«420717_j13408887898646_3_alg».proof.Proof.Spec
import Idealize.ShloMosaic.Lib.ReduceAll
import Idealize.ShloMosaic.Lib.StableHlo.Predicate
import Idealize.ShloMosaic.Lib.StableHlo.Run
import Idealize.ShloMosaic.Lib.ValueIdx
import Idealize.ShloMosaic.Lib.Pipeline.Value

noncomputable section

namespace Cert.Attn.Pre

open Idealize.ShloMosaic Idealize.ShloMosaic.ValueIdx Idealize.SL.Sem Cert.Attn

/-- The kernel program's mask array, as its host operations leave it before the region, is the reference's mask stage of
    the same two arguments. -/
theorem kernel_bias_eq (m : (ℓ : Loc Cert.KernelIdeal.nD Cert.KernelIdeal.τ Cert.KernelIdeal.sig) → Buf (Elt Ideal) ℓ)
    (c : Dev Cert.KernelIdeal.nD) :
    (Cert.KernelIdeal.Gen.V (F := Ideal) m c Cert.KernelIdeal.main_v24 : SBias.Idx → EReal)
      = Cert.ReferenceIdeal.Read.val_main_v27 (F := Ideal)
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  dsimp only [Cert.KernelIdeal.Gen.V, Cert.KernelIdeal.Gen.V0]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp
  unfold Cert.ReferenceIdeal.Read.val_main_v27 Cert.ReferenceIdeal.Read.val_main_v26 Cert.ReferenceIdeal.Read.val_main_v25
    Cert.ReferenceIdeal.Read.val_main_v24 Cert.ReferenceIdeal.Read.val_main_v23 Cert.ReferenceIdeal.Read.val_main_v22
    Cert.ReferenceIdeal.Read.val_main_v21 Cert.ReferenceIdeal.Read.val_main_v20 Cert.ReferenceIdeal.Read.val_main_v19
    Cert.ReferenceIdeal.Read.val_main_v18 Cert.ReferenceIdeal.Read.val_main_v17 Cert.ReferenceIdeal.Read.val_main_v16
    Cert.ReferenceIdeal.Read.val_main_v15 Cert.ReferenceIdeal.Read.val_main_v14 Cert.ReferenceIdeal.Read.val_main_v13
    Cert.ReferenceIdeal.Read.val_main_v12 Cert.ReferenceIdeal.Read.val_main_v11 Cert.ReferenceIdeal.Read.val_main_v10
    Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_cst
    Cert.ReferenceIdeal.Read.val_main_cst_0 Cert.ReferenceIdeal.Read.val_main_cst_1 Cert.ReferenceIdeal.Read.val_main_call0_v0
    Cert.ReferenceIdeal.Read.val_main_call0_v1 Cert.ReferenceIdeal.Read.val_main_cst_2 Cert.ReferenceIdeal.Read.val_main_cst_3
  rfl

/-! ## Reading the precondition -/

/-- The scalar shape has one index. -/
local instance subsingletonScalarIdx : Subsingleton (⟨0, ![]⟩ : Shape).Idx := ⟨fun a b => funext fun d => d.elim0⟩

/-- An extended real whose absolute value lies strictly below `+∞` is a real number. -/
theorem real_of_abs_lt (x : EReal) (h : Ideal.cmp .olt (max x (-x)) (Ideal.ofBits .f32 0x7F800000#32) = 1#1) :
    x ≠ ⊥ ∧ x ≠ ⊤ := by
  have e : Ideal.ofBits .f32 0x7F800000#32 = ⊤ := by simp [Ideal.ofBits, Ideal.ieee]
  rw [e] at h
  induction x using EReal.rec with
  | bot => simp [Ideal.cmp] at h
  | coe r => exact ⟨EReal.coe_ne_bot r, EReal.coe_ne_top r⟩
  | top => simp [Ideal.cmp] at h

/-- "Every entry's absolute value is below `+∞`", reduced by `and` to one bit that is set: every entry is real. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi
        (cmpf .olt (Host.absf a) (broadcastInDim s ![] bc (constant (F := Ideal) ⟨0, ![]⟩ .f32 0x7F800000#32)))
        (constantI ⟨0, ![]⟩ 1 1#1) hr hu ix0 = 1#1) (i : s.Idx) : a i ≠ ⊥ ∧ a i ≠ ⊤ :=
  real_of_abs_lt (a i) (Host.reduce_andi_all _ _ hr hu ix0 h i)

open Cert.Pre_finite_inputs in
/-- The `[4, 9, 32, 32]` array read through its `[4, 9216]` reshape at row `i 0`, column `i 2` is the array at the position the
    `[4, 1, 9216]` reshape reads for `i`: both are the same row-major position. -/
theorem cast_read {α : Type} (large : S4x9x32x32.Idx → α) (sc : S4x9x32x32.ShapeCasts S4x9216)
    (i : Cert.ReferenceIdeal.S4x1x9216.Idx) :
    shapeCast S4x9216 large sc (StableHlo.Predicate.ij (n := 4) (m := 9216) (i 0) (i 2))
      = large (Cert.ReferenceIdeal.Read.idx_main_v26 i) := by
  refine shapeCast_apply large sc _ (Cert.ReferenceIdeal.Read.idx_main_v26 i) ?_
  rw [Shape.rowMajor_val_four, Shape.rowMajor_val_two]
  have h0 : (i 0).val < 4 := (i 0).isLt
  have h1 : (i 1).val < 1 := (i 1).isLt
  have h2 : (i 2).val < 9216 := (i 2).isLt
  show (((((i 0).val * 1 + (i 1).val) * 9216 + (i 2).val) / 9216 * 9
        + (((i 0).val * 1 + (i 1).val) * 9216 + (i 2).val) / 1024 % 9) * 32
        + (((i 0).val * 1 + (i 1).val) * 9216 + (i 2).val) / 32 % 32) * 32
        + (((i 0).val * 1 + (i 1).val) * 9216 + (i 2).val) % 32 = (i 0).val * 9216 + (i 2).val
  omega

open Cert.Pre_finite_inputs in
/-- A batch whose count of set bits is positive has a key position whose bit is set. -/
theorem exists_of_count_pos (large : IVec S4x9x32x32 1) (sc : S4x9x32x32.ShapeCasts S4x9216) (hw : 1 < 32)
    (hr : S4x9216.ReducesTo [1] S4) (hu : 0 < S_.numel) (b : Fin 4)
    (h : IntOp.cmpi .sgt
        (Host.reduce IntOp.addi (extui 32 (shapeCast S4x9216 large sc) hw) (constantI S_ 32 0#32) hr hu (ix1 b)) 0#32 = 1#1) :
    ∃ q : Fin 9216, large (Cert.ReferenceIdeal.Read.idx_main_v26 (ix3 b 0 q)) = 1#1 := by
  have hc := StableHlo.Predicate.toNat_reduce_count_cols (n := 4) (m := 9216) (by norm_num)
    (shapeCast S4x9216 large sc) hw hr hu (ix1 b)
  have hle : (Finset.univ.filter (fun q : Fin 9216 =>
      shapeCast S4x9216 large sc (StableHlo.Predicate.ij (n := 4) (m := 9216) ((ix1 b) 0) q) = 1#1)).card ≤ 9216 := by
    simpa using Finset.card_le_univ (Finset.univ.filter (fun q : Fin 9216 =>
      shapeCast S4x9216 large sc (StableHlo.Predicate.ij (n := 4) (m := 9216) ((ix1 b) 0) q) = 1#1))
  rw [StableHlo.Predicate.sgt_iff_toNat (by rw [hc]; omega) (by decide), hc] at h
  obtain ⟨q, hq⟩ := Finset.card_pos.1 (lt_of_le_of_lt (Nat.zero_le _) h)
  exact ⟨q, (cast_read large sc (ix3 b 0 q)).symm.trans (Finset.mem_filter.1 hq).2⟩

/-- An entry of the mask is `0` where the comparison's bit is set and `-∞` elsewhere. -/
theorem mask_apply (a3 : FVec Ideal Cert.Pre_finite_inputs.S4x1x32x32 .f32) (a4 : IVec Cert.Pre_finite_inputs.S4x9x2 32)
    (i : Cert.ReferenceIdeal.S4x1x9216.Idx) :
    Cert.ReferenceIdeal.Read.val_main_v27 (F := Ideal) a3 a4 i
      = if Cert.ReferenceIdeal.Read.val_main_v24 (F := Ideal) a3 a4 (Cert.ReferenceIdeal.Read.idx_main_v26 i) = 1#1
        then 0 else ⊥ := by
  have e3 : Ideal.ofBits .f32 0xFF800000#32 = ⊥ := by simp [Ideal.ofBits, Ideal.ieee]
  rw [Cert.ReferenceIdeal.Read.val_main_v27_apply, Cert.ReferenceIdeal.Read.val_main_v26_apply,
    Cert.ReferenceIdeal.Read.val_main_v25_apply, Cert.ReferenceIdeal.Read.val_main_call0_v0_apply,
    Cert.ReferenceIdeal.Read.val_main_call0_v1_apply, Cert.ReferenceIdeal.Read.val_main_cst_2_apply,
    Cert.ReferenceIdeal.Read.val_main_cst_3_apply, Ideal.ofBits_def, Ideal.ofBits_def, Ideal.ofBits_zero_f32, e3]
  rfl

/-- The precondition read back: the three float arrays the attention reads are real everywhere; every entry of the mask is
    `0` or `-∞`; and every batch has a key position whose mask entry is `0`. -/
theorem pre_decode (a0 a1 : FVec Ideal Cert.Pre_finite_inputs.S9x4x64x32x32 .f32)
    (a2 : FVec Ideal Cert.Pre_finite_inputs.S4x64x32x32 .f32) (a3 : FVec Ideal Cert.Pre_finite_inputs.S4x1x32x32 .f32)
    (a4 : IVec Cert.Pre_finite_inputs.S4x9x2 32)
    (h : Cert.Pre_finite_inputs.fn (F := Ideal) a0 a1 a2 a3 a4 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤)
      ∧ (∀ i, Cert.ReferenceIdeal.Read.val_main_v27 (F := Ideal) a3 a4 i = 0
            ∨ Cert.ReferenceIdeal.Read.val_main_v27 (F := Ideal) a3 a4 i = ⊥)
      ∧ (∀ b : Fin 4, ∃ (s : Fin 9) (j : Fin 1024),
            Cert.ReferenceIdeal.Read.val_main_v27 (F := Ideal) a3 a4 (ix3 b 0 (keyPos s j)) = 0) := by
  have h0 := congrFun h ValueIdx.ix0
  dsimp only [Cert.Pre_finite_inputs.fn, Cert.Pre_finite_inputs.fn_part1, Cert.Pre_finite_inputs.fn_part2] at h0
  obtain ⟨h0123, h4⟩ := IntOp.andi_eq_one.1 h0
  obtain ⟨h012, h3⟩ := IntOp.andi_eq_one.1 h0123
  obtain ⟨h01, h2⟩ := IntOp.andi_eq_one.1 h012
  obtain ⟨hA0, hA1⟩ := IntOp.andi_eq_one.1 h01
  clear h0 h0123 h012 h01 h3
  refine ⟨all_real a0 _ _ _ hA0, all_real a1 _ _ _ hA1, all_real a2 _ _ _ h2, ?_, ?_⟩
  · intro i
    rw [mask_apply]
    by_cases hb : Cert.ReferenceIdeal.Read.val_main_v24 (F := Ideal) a3 a4 (Cert.ReferenceIdeal.Read.idx_main_v26 i) = 1#1
    · exact Or.inl (if_pos hb)
    · exact Or.inr (if_neg hb)
  · intro b
    have hb : _ = 1#1 := Host.reduce_andi_all _ _ _ _ ix0 h4 (ix1 b)
    obtain ⟨q, hq⟩ := exists_of_count_pos (Cert.ReferenceIdeal.Read.val_main_v24 (F := Ideal) a3 a4) _ _ _ _ b hb
    refine ⟨⟨q.val / 1024, by have := q.isLt; omega⟩, ⟨q.val % 1024, Nat.mod_lt _ (by norm_num)⟩, ?_⟩
    have hk : keyPos ⟨q.val / 1024, by have := q.isLt; omega⟩ ⟨q.val % 1024, Nat.mod_lt _ (by norm_num)⟩ = q :=
      Fin.ext (by show q.val / 1024 * 1024 + q.val % 1024 = q.val; omega)
    rw [hk, mask_apply, if_pos hq]

end Cert.Attn.Pre

end
-- ==== Proof.KernelPay.lean ====
/-
  The kernel body's arithmetic read at an index, at the extended reals: each value the loop body computes is the
  streaming softmax's step of the carried value at that row (and channel).
-/
import proofs.«420717_j13408887898646_3_alg».proof.Proof.Gen.KernelIdeal.Skeleton
import proofs.«420717_j13408887898646_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Attn.Pay

open Cert.KernelIdeal Cert.KernelIdeal.Gen Idealize.ShloMosaic Idealize.ShloMosaic.ValueIdx Cert.Attn

/-! ## The three words the body writes as constants -/

theorem ofBits_negInf : Ideal.ofBits .f32 0xFF800000#32 = (⊥ : EReal) := by simp [Ideal.ofBits, Ideal.ieee]
theorem ofBits_posInf : Ideal.ofBits .f32 0x7F800000#32 = (⊤ : EReal) := by simp [Ideal.ofBits, Ideal.ieee]

/-! ## Layout operations at explicit coordinates -/

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two lane reductions of a `[256, 1024]` block, row by row -/

/-- The lane sum of row `r`. -/
theorem laneSum_apply (src : FVec Ideal S256x1024 .f32) (h : S256x1024.Reduces [1] S256) (hφ : FKind.Formats .f32)
    (hacc : (0x00000000#32 : BitVec 32) = FKind.add.neutral .f32 hφ) (r : Fin 256) :
    multiReduction (F := Ideal) .add [1] S256 src 0x00000000#32 h hφ hacc (ix1 r) = ∑ j : Fin 1024, src (ix2 r j) := by
  refine (Ideal.multiReduction_add_single src _ h hφ hacc (ix1 r)).trans ?_
  refine Finset.sum_congr rfl fun k _ => congrArg src ?_
  funext a
  refine Fin.ext ?_
  match a with
  | ⟨0, _⟩ => rfl
  | ⟨1, _⟩ => rfl

/-- The lane maximum of row `r`, from `-∞`. -/
theorem laneMax_apply (src : FVec Ideal S256x1024 .f32) (h : S256x1024.Reduces [1] S256) (hφ : FKind.Formats .f32)
    (hacc : (0xFF800000#32 : BitVec 32) = FKind.maximumf.neutral .f32 hφ) (r : Fin 256) :
    multiReduction (F := Ideal) .maximumf [1] S256 src 0xFF800000#32 h hφ hacc (ix1 r) = frameMax fun j => src (ix2 r j) := by
  refine (Ideal.multiReduction_maximumf_single src _ h hφ hacc (ix1 r)).trans ?_
  have hf : (src ∘ h.lift (ix1 r)) = fun j : Fin 1024 => src (ix2 r j) := by
    funext k
    refine congrArg src ?_
    funext a
    refine Fin.ext ?_
    match a with
    | ⟨0, _⟩ => rfl
    | ⟨1, _⟩ => rfl
  have hb : FloatOps.ofBits (F := Ideal) .f32 0xFF800000#32 = (⊥ : EReal) := ofBits_negInf
  rw [hb]
  unfold frameMax Finset.sup
  exact congrArg (fun f => Finset.fold max (⊥ : EReal) f (Finset.univ : Finset (Fin 1024))) hf

/-! ## The two matrix products at an index

Scores: `[64, 256]ᵀ · [64, 1024]`, contracting axis 0 of both. Weighted values: `[256, 1024] · [64, 1024]ᵀ`, contracting
axis 1 of both. Each operand index is read coordinate by coordinate. -/

theorem lhs_qk_0 (i : S256x1024.Idx) (q : dot_S64x256_S64x1024_S256x1024_0_0_1_1_n_n.contr.Idx) :
    (dot_S64x256_S64x1024_S256x1024_0_0_1_1_n_n.lhsIdx i q 0).val = (q ⟨0, by decide⟩).val :=
  dot_S64x256_S64x1024_S256x1024_0_0_1_1_n_n.lhsIdx_val_of_single rfl i q
theorem lhs_qk_1 (i : S256x1024.Idx) (q : dot_S64x256_S64x1024_S256x1024_0_0_1_1_n_n.contr.Idx) :
    (dot_S64x256_S64x1024_S256x1024_0_0_1_1_n_n.lhsIdx i q 1).val = (i 0).val := by
  unfold DotDims.lhsIdx
  rw [dif_neg (show ¬(1 : Fin S64x256.rank) ∈ dot_S64x256_S64x1024_S256x1024_0_0_1_1_n_n.lhsBatch by decide), dif_pos (show (1 : Fin S64x256.rank) ∈ dot_S64x256_S64x1024_S256x1024_0_0_1_1_n_n.lhsNonContracting by decide)]
  rfl
theorem rhs_qk_0 (i : S256x1024.Idx) (q : dot_S64x256_S64x1024_S256x1024_0_0_1_1_n_n.contr.Idx) :
    (dot_S64x256_S64x1024_S256x1024_0_0_1_1_n_n.rhsIdx i q 0).val = (q ⟨0, by decide⟩).val :=
  dot_S64x256_S64x1024_S256x1024_0_0_1_1_n_n.rhsIdx_val_of_single rfl i q
theorem rhs_qk_1 (i : S256x1024.Idx) (q : dot_S64x256_S64x1024_S256x1024_0_0_1_1_n_n.contr.Idx) :
    (dot_S64x256_S64x1024_S256x1024_0_0_1_1_n_n.rhsIdx i q 1).val = (i 1).val := by
  unfold DotDims.rhsIdx
  rw [dif_neg (show ¬(1 : Fin S64x1024.rank) ∈ dot_S64x256_S64x1024_S256x1024_0_0_1_1_n_n.rhsBatch by decide), dif_pos (show (1 : Fin S64x1024.rank) ∈ dot_S64x256_S64x1024_S256x1024_0_0_1_1_n_n.rhsNonContracting by decide)]
  rfl

/-- The score product at `(r, j)`: the sum over the 64 channels. -/
theorem matmul_qk_apply (lhs : FVec Ideal S64x256 .bf16) (rhs : FVec Ideal S64x1024 .bf16) (r : Fin 256) (j : Fin 1024) :
    FloatOps.matmul dot_S64x256_S64x1024_S256x1024_0_0_1_1_n_n none lhs rhs (constant (F := Ideal) S256x1024 .f32 0x00000000#32) (ix2 r j)
      = ∑ c : Fin 64, lhs (ix2 c r) * rhs (ix2 c j) := by
  rw [Ideal.matmul_constant_zero_apply, ← Equiv.sum_comp (ValueIdx.contrEquiv1 dot_S64x256_S64x1024_S256x1024_0_0_1_1_n_n 64 rfl rfl).symm]
  refine Finset.sum_congr rfl fun k _ => ?_
  have hk := ValueIdx.contrEquiv1_symm_val dot_S64x256_S64x1024_S256x1024_0_0_1_1_n_n 64 rfl rfl k
  have el : dot_S64x256_S64x1024_S256x1024_0_0_1_1_n_n.lhsIdx (ix2 r j) ((ValueIdx.contrEquiv1 dot_S64x256_S64x1024_S256x1024_0_0_1_1_n_n 64 rfl rfl).symm k) = ix2 k r := funext fun a => Fin.ext (by
    match a with
    | ⟨0, _⟩ => exact (lhs_qk_0 _ _).trans hk
    | ⟨1, _⟩ => exact lhs_qk_1 _ _)
  have er : dot_S64x256_S64x1024_S256x1024_0_0_1_1_n_n.rhsIdx (ix2 r j) ((ValueIdx.contrEquiv1 dot_S64x256_S64x1024_S256x1024_0_0_1_1_n_n 64 rfl rfl).symm k) = ix2 k j := funext fun a => Fin.ext (by
    match a with
    | ⟨0, _⟩ => exact (rhs_qk_0 _ _).trans hk
    | ⟨1, _⟩ => exact rhs_qk_1 _ _)
  rw [el, er]

theorem lhs_pv_0 (i : S256x64.Idx) (q : dot_S256x1024_S64x1024_S256x64_1_1_0_0_n_n.contr.Idx) :
    (dot_S256x1024_S64x1024_S256x64_1_1_0_0_n_n.lhsIdx i q 0).val = (i 0).val := by
  unfold DotDims.lhsIdx
  rw [dif_neg (show ¬(0 : Fin S256x1024.rank) ∈ dot_S256x1024_S64x1024_S256x64_1_1_0_0_n_n.lhsBatch by decide), dif_pos (show (0 : Fin S256x1024.rank) ∈ dot_S256x1024_S64x1024_S256x64_1_1_0_0_n_n.lhsNonContracting by decide)]
  rfl
theorem lhs_pv_1 (i : S256x64.Idx) (q : dot_S256x1024_S64x1024_S256x64_1_1_0_0_n_n.contr.Idx) :
    (dot_S256x1024_S64x1024_S256x64_1_1_0_0_n_n.lhsIdx i q 1).val = (q ⟨0, by decide⟩).val :=
  dot_S256x1024_S64x1024_S256x64_1_1_0_0_n_n.lhsIdx_val_of_single rfl i q
theorem rhs_pv_0 (i : S256x64.Idx) (q : dot_S256x1024_S64x1024_S256x64_1_1_0_0_n_n.contr.Idx) :
    (dot_S256x1024_S64x1024_S256x64_1_1_0_0_n_n.rhsIdx i q 0).val = (i 1).val := by
  unfold DotDims.rhsIdx
  rw [dif_neg (show ¬(0 : Fin S64x1024.rank) ∈ dot_S256x1024_S64x1024_S256x64_1_1_0_0_n_n.rhsBatch by decide), dif_pos (show (0 : Fin S64x1024.rank) ∈ dot_S256x1024_S64x1024_S256x64_1_1_0_0_n_n.rhsNonContracting by decide)]
  rfl
theorem rhs_pv_1 (i : S256x64.Idx) (q : dot_S256x1024_S64x1024_S256x64_1_1_0_0_n_n.contr.Idx) :
    (dot_S256x1024_S64x1024_S256x64_1_1_0_0_n_n.rhsIdx i q 1).val = (q ⟨0, by decide⟩).val :=
  dot_S256x1024_S64x1024_S256x64_1_1_0_0_n_n.rhsIdx_val_of_single rfl i q

/-- The weighted-value product at `(r, c)`: the sum over the frame's 1024 pixels. -/
theorem matmul_pv_apply (lhs : FVec Ideal S256x1024 .bf16) (rhs : FVec Ideal S64x1024 .bf16) (r : Fin 256) (c : Fin 64) :
    FloatOps.matmul dot_S256x1024_S64x1024_S256x64_1_1_0_0_n_n none lhs rhs (constant (F := Ideal) S256x64 .f32 0x00000000#32) (ix2 r c)
      = ∑ j : Fin 1024, lhs (ix2 r j) * rhs (ix2 c j) := by
  rw [Ideal.matmul_constant_zero_apply, ← Equiv.sum_comp (ValueIdx.contrEquiv1 dot_S256x1024_S64x1024_S256x64_1_1_0_0_n_n 1024 rfl rfl).symm]
  refine Finset.sum_congr rfl fun k _ => ?_
  have hk := ValueIdx.contrEquiv1_symm_val dot_S256x1024_S64x1024_S256x64_1_1_0_0_n_n 1024 rfl rfl k
  have el : dot_S256x1024_S64x1024_S256x64_1_1_0_0_n_n.lhsIdx (ix2 r c) ((ValueIdx.contrEquiv1 dot_S256x1024_S64x1024_S256x64_1_1_0_0_n_n 1024 rfl rfl).symm k) = ix2 r k := funext fun a => Fin.ext (by
    match a with
    | ⟨0, _⟩ => exact lhs_pv_0 _ _
    | ⟨1, _⟩ => exact (lhs_pv_1 _ _).trans hk)
  have er : dot_S256x1024_S64x1024_S256x64_1_1_0_0_n_n.rhsIdx (ix2 r c) ((ValueIdx.contrEquiv1 dot_S256x1024_S64x1024_S256x64_1_1_0_0_n_n 1024 rfl rfl).symm k) = ix2 c k := funext fun a => Fin.ext (by
    match a with
    | ⟨0, _⟩ => exact rhs_pv_0 _ _
    | ⟨1, _⟩ => exact (rhs_pv_1 _ _).trans hk)
  rw [el, er]

/-! ## The guarded maximum, one element -/

/-- The body's `select (|m| = +∞) 0 m` is the specification's guarded maximum. -/
theorem select_safe (m : Ideal .f32) :
    Scalar.select (FloatOps.cmpf .oeq (FloatOps.absf m) (Scalar.ofBits (F := Ideal) .f32 0x7F800000#32))
        (Scalar.ofBits (F := Ideal) .f32 0x00000000#32) m = safe m := by
  have hs : ∀ b : BitVec 32, Scalar.ofBits (F := Ideal) .f32 b = Ideal.ofBits .f32 b := fun _ => rfl
  simp only [Scalar.select, Ideal.cmpf_def, Ideal.absf_def, hs, Ideal.cmp, ofBits_posInf, Ideal.ofBits_zero_f32]
  unfold safe
  by_cases h : max m (-m) = (⊤ : EReal)
  · simp [h]
  · simp [h]

/-! ## The payloads at an index -/

/-- The running maximum starts at `-∞`. -/
theorem pay1_apply (i : S256x1.Idx) : k0_pay1 (F := Ideal) i = (⊥ : EReal) := by
  unfold k0_pay1
  exact ofBits_negInf

/-- The running normaliser starts at `0`. -/
theorem pay2_apply (i : S256x1.Idx) : k0_pay2 (F := Ideal) i = (0 : EReal) := by
  unfold k0_pay2
  exact Ideal.ofBits_zero_f32

/-- The running weighted sum starts at `0`. -/
theorem pay3_apply (i : S256x64.Idx) : k0_pay3 (F := Ideal) i = (0 : EReal) := by
  unfold k0_pay3
  exact Ideal.ofBits_zero_f32

/-- One frame's scores: row `r` of the query block against pixel `j` of the frame's keys, plus the mask. -/
theorem pay4_apply (v0 : Vec Ideal S1x64x256 .f32) (v17 : Vec Ideal S1x1x64x1024 .f32) (v25 : Vec Ideal S1x1x1024 .f32)
    (r : Fin 256) (j : Fin 1024) :
    k0_pay4 v0 v17 v25 (ix2 r j) = (∑ c : Fin 64, v0 (ix3 0 c r) * v17 (ix4 0 0 c j)) + v25 (ix3 0 0 j) := by
  unfold k0_pay4
  simp only [addf_apply, matmul]
  rw [matmul_qk_apply, broadcastTo_1b_ab_apply, shapeCast_1ab_ab_apply]
  refine congrArg (· + v25 (ix3 0 0 j)) (Finset.sum_congr rfl fun c _ => ?_)
  rw [truncf_apply, truncf_apply, shapeCast_1ab_ab_apply, shapeCast_11ab_ab_apply]

/-- The new running maximum of row `r`. -/
theorem pay5_apply (v0 : Vec Ideal S1x64x256 .f32) (arg8 : FVec Ideal S256x1 .f32) (v17 : Vec Ideal S1x1x64x1024 .f32)
    (v25 : Vec Ideal S1x1x1024 .f32) (r : Fin 256) :
    k0_pay5 v0 arg8 v17 v25 (ix2 r 0) = stepM (arg8 (ix2 r 0)) (fun j => k0_pay4 v0 v17 v25 (ix2 r j)) := by
  unfold k0_pay5 stepM
  dsimp only
  rw [maximumf_apply, shapeCast_a_a1_apply]
  exact congrArg (max (arg8 (ix2 r 0))) (laneMax_apply _ _ _ _ r)

/-- The guarded maximum of row `r`. -/
theorem pay6_apply (v0 : Vec Ideal S1x64x256 .f32) (arg8 : FVec Ideal S256x1 .f32) (v17 : Vec Ideal S1x1x64x1024 .f32)
    (v25 : Vec Ideal S1x1x1024 .f32) (r : Fin 256) :
    k0_pay6 v0 arg8 v17 v25 (ix2 r 0) = safe (k0_pay5 v0 arg8 v17 v25 (ix2 r 0)) := by
  unfold k0_pay6
  exact select_safe (k0_pay5 v0 arg8 v17 v25 (ix2 r 0))

/-- The factor that rescales row `r`'s carried values to the new maximum. -/
theorem pay7_apply (v0 : Vec Ideal S1x64x256 .f32) (arg8 : FVec Ideal S256x1 .f32) (v17 : Vec Ideal S1x1x64x1024 .f32)
    (v25 : Vec Ideal S1x1x1024 .f32) (r : Fin 256) :
    k0_pay7 v0 arg8 v17 v25 (ix2 r 0) = Ideal.exp (arg8 (ix2 r 0) - safe (k0_pay5 v0 arg8 v17 v25 (ix2 r 0))) := by
  unfold k0_pay7
  show Ideal.exp (arg8 (ix2 r 0) - k0_pay6 v0 arg8 v17 v25 (ix2 r 0)) = _
  rw [pay6_apply]

/-- The weight of pixel `j` in row `r`. -/
theorem pay8_apply (v0 : Vec Ideal S1x64x256 .f32) (arg8 : FVec Ideal S256x1 .f32) (v17 : Vec Ideal S1x1x64x1024 .f32)
    (v25 : Vec Ideal S1x1x1024 .f32) (r : Fin 256) (j : Fin 1024) :
    k0_pay8 v0 arg8 v17 v25 (ix2 r j)
      = Ideal.exp (k0_pay4 v0 v17 v25 (ix2 r j) - safe (k0_pay5 v0 arg8 v17 v25 (ix2 r 0))) := by
  unfold k0_pay8
  show Ideal.exp (k0_pay4 v0 v17 v25 (ix2 r j) - broadcastTo S256x1024 (k0_pay6 v0 arg8 v17 v25) _ (ix2 r j)) = _
  rw [broadcastTo_a1_ab_apply, pay6_apply]

/-- The new running normaliser of row `r`. -/
theorem pay9_apply (v0 : Vec Ideal S1x64x256 .f32) (arg8 arg9 : FVec Ideal S256x1 .f32) (v17 : Vec Ideal S1x1x64x1024 .f32)
    (v25 : Vec Ideal S1x1x1024 .f32) (r : Fin 256) :
    k0_pay9 v0 arg8 arg9 v17 v25 (ix2 r 0)
      = stepL (arg8 (ix2 r 0)) (arg9 (ix2 r 0)) (fun j => k0_pay4 v0 v17 v25 (ix2 r j)) := by
  unfold k0_pay9 stepL
  simp only [addf_apply, mulf_apply]
  rw [shapeCast_a_a1_apply, pay7_apply, pay5_apply]
  refine congrArg (Ideal.exp (arg8 (ix2 r 0) - safe (stepM (arg8 (ix2 r 0)) fun j => k0_pay4 v0 v17 v25 (ix2 r j))) * arg9 (ix2 r 0) + ·) ?_
  refine (laneSum_apply _ _ _ _ r).trans (Finset.sum_congr rfl fun j _ => ?_)
  rw [pay8_apply, pay5_apply]

/-- The new running weighted sum of row `r`, channel `c`. -/
theorem pay10_apply (v0 : Vec Ideal S1x64x256 .f32) (arg8 : FVec Ideal S256x1 .f32) (arg10 : FVec Ideal S256x64 .f32)
    (v17 v21 : Vec Ideal S1x1x64x1024 .f32) (v25 : Vec Ideal S1x1x1024 .f32) (r : Fin 256) (c : Fin 64) :
    k0_pay10 v0 arg8 arg10 v17 v21 v25 (ix2 r c)
      = stepA (arg8 (ix2 r 0)) (arg10 (ix2 r c)) (fun j => k0_pay4 v0 v17 v25 (ix2 r j)) (fun j => v21 (ix4 0 0 c j)) := by
  unfold k0_pay10 stepA
  simp only [addf_apply, mulf_apply, matmul]
  rw [matmul_pv_apply, broadcastTo_a1_ab_apply, pay7_apply, pay5_apply]
  refine congrArg (Ideal.exp (arg8 (ix2 r 0) - safe (stepM (arg8 (ix2 r 0)) fun j => k0_pay4 v0 v17 v25 (ix2 r j))) * arg10 (ix2 r c) + ·) ?_
  refine Finset.sum_congr rfl fun j _ => ?_
  rw [truncf_apply, truncf_apply, pay8_apply, pay5_apply, shapeCast_11ab_ab_apply]

/-- The stored block: channel `c`, row `r` is the weighted sum over the normaliser. -/
theorem pay11_apply (l : FVec Ideal S256x1 .f32) (a : FVec Ideal S256x64 .f32) (c : Fin 64) (r : Fin 256) :
    k0_pay11 l a (ix3 0 c r) = Ideal.div (a (ix2 r c)) (l (ix2 r 0)) := by
  unfold k0_pay11
  simp only []
  rw [shapeCast_ab_1ab_apply, transpose_ix2_apply, divf_apply, broadcastTo_a1_ab_apply]

end Cert.Attn.Pay

end
-- ==== Proof.KernelRun.lean ====
/-
  What the kernel body leaves in its output block, read at an index at the extended reals: the streaming softmax of the
  block's query row against the nine frames of keys, mask and values it was called with.

  The body's run leaves ONE covering store: the weighted sum over the normaliser, of the triple the nine-trip loop carries.
  One trip sends the carried triple to (new maximum, new normaliser, new weighted sum) computed from the query block and
  frame `k`'s keys, values and mask; read at a row (and a channel) these are the streaming softmax's step functions, so the
  carried triple before trip `n` is, entry by entry, the streaming softmax's state after `n` frames — by induction on `n`.
-/
import proofs.«420717_j13408887898646_3_alg».proof.Proof.Gen.KernelIdeal.Frame
import proofs.«420717_j13408887898646_3_alg».proof.Proof.KernelPay
import Idealize.ShloMosaic.Lib.Pipeline.Value
import Idealize.ShloMosaic.Lib.Tactic

noncomputable section

open Idealize.ShloMosaic Idealize.ShloMosaic.TcCoe Idealize.SL.Sem Idealize.ShloMosaic.ValueIdx

namespace Cert.Attn.Run

open Cert.KernelIdeal Cert.KernelIdeal.Gen Cert.Attn

theorem hz3 : (![0, 0, 0] : Fin 3 → Nat) = fun _ => 0 := funext fun a => by fin_cases a <;> rfl

/-- The loop runs nine trips. -/
theorem trips_eq : k0_t1_loop.trips = 9 := by decide +kernel

/-- Trip `k` loads frame `k` of the keys and of the values … -/
theorem off1_eq : ∀ k : Fin k0_t1_loop.trips, k0_off1 k = ![k.val, 0, 0, 0] := by decide +kernel

/-- … and the `k`-th stretch of 1024 mask entries. -/
theorem off2_eq : ∀ k : Fin k0_t1_loop.trips, k0_off2 k = ![0, 0, k.val * 1024] := by decide +kernel

section generic

variable {F : FTy → Type} [FloatOps F]

/-- Frame `k` as the trip loads it from a [9,1,64,1024] buffer holding `X`. -/
abbrev ldFrame (arg : Memref sig .tc .vmem S9x1x64x1024 .f32) (X : BufTy.Contents (Elt F) arg.view.ty)
    (k : Fin k0_t1_loop.trips) : Vec F S1x1x64x1024 .f32 :=
  View.readAt (Elt F) arg.view (Rect.unit (s := S9x1x64x1024) (k0_off1 k) S1x1x64x1024.size (k0_off1_inb k)).toLoadRect X

/-- The mask stretch trip `k` loads from the [1,1,9216] buffer holding `X`. -/
abbrev ldMask (arg : Memref sig .tc .vmem S1x1x9216 .f32) (X : BufTy.Contents (Elt F) arg.view.ty)
    (k : Fin k0_t1_loop.trips) : Vec F S1x1x1024 .f32 :=
  View.readAt (Elt F) arg.view (Rect.unit (s := S1x1x9216) (k0_off2 k) S1x1x1024.size (k0_off2_inb k)).toLoadRect X

/-- One trip: the three yields as functions of the carried triple and the trip's three loads. -/
theorem trip_eq (𝒱 : Variants) (c : Dev nD) (bd : Option 𝒱.V) (i : grid0.Coords) (arg2 : Memref sig .tc .vmem S1x64x256 .f32) (harg2 : arg2.IsWhole) (arg3 : Memref sig .tc .vmem S9x1x64x1024 .f32) (harg3 : arg3.IsWhole) (arg4 : Memref sig .tc .vmem S9x1x64x1024 .f32) (harg4 : arg4.IsWhole) (arg5 : Memref sig .tc .vmem S1x1x9216 .f32) (harg5 : arg5.IsWhole) (arg6 : Memref sig .tc .vmem S1x64x256 .f32) (harg6 : arg6.IsWhole) (v0 : Vec F S1x64x256 .f32) (X3 : BufTy.Contents (Elt F) arg3.view.ty) (X4 : BufTy.Contents (Elt F) arg4.view.ty) (X5 : BufTy.Contents (Elt F) arg5.view.ty) (k : Fin k0_t1_loop.trips)
    (acc : FVec F S256x1 .f32 × FVec F S256x1 .f32 × FVec F S256x64 .f32) :
    tripR_k0_t1 (F := F) 𝒱 c bd i arg2 harg2 arg3 harg3 arg4 harg4 arg5 harg5 arg6 harg6 v0 X3 X4 X5 k acc
      = (k0_pay5 v0 acc.1 (ldFrame arg3 X3 k) (ldMask arg5 X5 k),
         k0_pay9 v0 acc.1 acc.2.1 (ldFrame arg3 X3 k) (ldMask arg5 X5 k),
         k0_pay10 v0 acc.1 acc.2.2 (ldFrame arg3 X3 k) (ldFrame arg4 X4 k) (ldMask arg5 X5 k)) := by
  unfold tripR_k0_t1 trip_k0_t1
  rfl

end generic

/-- A loaded frame at an index is the buffer's contents at that frame. -/
theorem ldFrame_apply (arg : Memref sig .tc .vmem S9x1x64x1024 .f32) (harg : arg.IsWhole) (x : Vec Ideal S9x1x64x1024 .f32)
    (k : Fin k0_t1_loop.trips) (s : Fin 9) (hs : s.val = k.val) (c' : Fin 64) (j : Fin 1024) :
    ldFrame (F := Ideal) arg (harg.unread x) k (ix4 0 0 c' j) = x (ix4 s 0 c' j) := by
  unfold ldFrame
  rw [View.readAt_eq_ld, harg.read_unread]
  show x ((Rect.unit (s := S9x1x64x1024) (k0_off1 k) S1x1x64x1024.size (k0_off1_inb k)).idx (ix4 0 0 c' j)) = _
  congr 1
  funext a
  apply Fin.ext
  show (k0_off1 k) a + 1 * ((ix4 (0 : Fin 1) (0 : Fin 1) c' j : S1x1x64x1024.Idx) a).val = _
  rw [off1_eq k]
  match a with
  | ⟨0, _⟩ => simp [hs]
  | ⟨1, _⟩ => simp
  | ⟨2, _⟩ => simp
  | ⟨3, _⟩ => simp

/-- A loaded mask stretch at an index is the buffer's contents at that frame's key position. -/
theorem ldMask_apply (arg : Memref sig .tc .vmem S1x1x9216 .f32) (harg : arg.IsWhole) (x : Vec Ideal S1x1x9216 .f32)
    (k : Fin k0_t1_loop.trips) (s : Fin 9) (hs : s.val = k.val) (j : Fin 1024) :
    ldMask (F := Ideal) arg (harg.unread x) k (ix3 0 0 j) = x (ix3 0 0 (keyPos s j)) := by
  unfold ldMask
  rw [View.readAt_eq_ld, harg.read_unread]
  show x ((Rect.unit (s := S1x1x9216) (k0_off2 k) S1x1x1024.size (k0_off2_inb k)).idx (ix3 0 0 j)) = _
  congr 1
  funext a
  apply Fin.ext
  show (k0_off2 k) a + 1 * ((ix3 (0 : Fin 1) (0 : Fin 1) j : S1x1x1024.Idx) a).val = _
  rw [off2_eq k]
  match a with
  | ⟨0, _⟩ => simp
  | ⟨1, _⟩ => simp
  | ⟨2, _⟩ => simp [keyPos, hs]

/-- The streaming state after one more frame. -/
theorem onl_succ (x v : Fin 9 → Fin 1024 → EReal) (n : ℕ) (h : n < 9) :
    onl x v (n + 1) = (stepM (onl x v n).1 (x ⟨n, h⟩), stepL (onl x v n).1 (onl x v n).2.1 (x ⟨n, h⟩),
      stepA (onl x v n).1 (onl x v n).2.2 (x ⟨n, h⟩) (v ⟨n, h⟩)) :=
  (onl.eq_2 x v n).trans (dif_pos h)

section carried

variable (c : Dev nD) (i : grid0.Coords) (arg2 : Memref sig .tc .vmem S1x64x256 .f32) (harg2 : arg2.IsWhole) (arg3 : Memref sig .tc .vmem S9x1x64x1024 .f32) (harg3 : arg3.IsWhole) (arg4 : Memref sig .tc .vmem S9x1x64x1024 .f32) (harg4 : arg4.IsWhole) (arg5 : Memref sig .tc .vmem S1x1x9216 .f32) (harg5 : arg5.IsWhole) (arg6 : Memref sig .tc .vmem S1x64x256 .f32) (harg6 : arg6.IsWhole) (x0 : Vec Ideal S1x64x256 .f32) (x1 x2 : Vec Ideal S9x1x64x1024 .f32) (x3 : Vec Ideal S1x1x9216 .f32)

/-- The triple the loop carries before trip `n`, from the initial `(-∞, 0, 0)`, with the buffers holding `x0 … x3`. -/
abbrev carriedAt (n : ℕ) : FVec Ideal S256x1 .f32 × FVec Ideal S256x1 .f32 × FVec Ideal S256x64 .f32 :=
  st_k0_t1 (F := Ideal) Variants.none c none i arg2 harg2 arg3 harg3 arg4 harg4 arg5 harg5 arg6 harg6 x0
    (harg3.unread x1) (harg4.unread x2) (harg5.unread x3) (k0_pay1, k0_pay2, k0_pay3) n

/-- Row `r`'s scores against every key position, as the body computes them from its blocks. -/
abbrev rowX (r : Fin 256) : Fin 9 → Fin 1024 → EReal :=
  score (fun c' => x0 (ix3 0 c' r)) (fun s c' j => x1 (ix4 s 0 c' j)) (fun s j => x3 (ix3 0 0 (keyPos s j)))

/-- Channel `ch` of the values at every key position. -/
abbrev rowV (ch : Fin 64) : Fin 9 → Fin 1024 → EReal := fun s j => x2 (ix4 s 0 ch j)

/-- Entry by entry the carried triple is the streaming softmax's state. -/
theorem carried_eq (ch : Fin 64) (r : Fin 256) : ∀ n : ℕ, n ≤ 9 →
    (carriedAt c i arg2 harg2 arg3 harg3 arg4 harg4 arg5 harg5 arg6 harg6 x0 x1 x2 x3 n).1 (ix2 r 0) = (onl (rowX x0 x1 x3 r) (rowV x2 ch) n).1
    ∧ (carriedAt c i arg2 harg2 arg3 harg3 arg4 harg4 arg5 harg5 arg6 harg6 x0 x1 x2 x3 n).2.1 (ix2 r 0) = (onl (rowX x0 x1 x3 r) (rowV x2 ch) n).2.1
    ∧ (carriedAt c i arg2 harg2 arg3 harg3 arg4 harg4 arg5 harg5 arg6 harg6 x0 x1 x2 x3 n).2.2 (ix2 r ch) = (onl (rowX x0 x1 x3 r) (rowV x2 ch) n).2.2
  | 0, _ => ⟨Pay.pay1_apply (ix2 r 0), Pay.pay2_apply (ix2 r 0), Pay.pay3_apply (ix2 r ch)⟩
  | n + 1, hn => by
    have hn9 : n < 9 := hn
    obtain ⟨ih1, ih2, ih3⟩ := carried_eq ch r n (Nat.le_of_succ_le hn)
    have hk : n < k0_t1_loop.trips := by rw [trips_eq]; exact hn9
    have hst : carriedAt c i arg2 harg2 arg3 harg3 arg4 harg4 arg5 harg5 arg6 harg6 x0 x1 x2 x3 (n + 1)
        = tripR_k0_t1 (F := Ideal) Variants.none c none i arg2 harg2 arg3 harg3 arg4 harg4 arg5 harg5 arg6 harg6 x0
            (harg3.unread x1) (harg4.unread x2) (harg5.unread x3) ⟨n, hk⟩ (carriedAt c i arg2 harg2 arg3 harg3 arg4 harg4 arg5 harg5 arg6 harg6 x0 x1 x2 x3 n) :=
      st_k0_t1_succ (F := Ideal) Variants.none c none i arg2 harg2 arg3 harg3 arg4 harg4 arg5 harg5 arg6 harg6 x0
        (harg3.unread x1) (harg4.unread x2) (harg5.unread x3) (k0_pay1, k0_pay2, k0_pay3) ⟨n, hk⟩
    have hx : (fun j => k0_pay4 x0 (ldFrame (F := Ideal) arg3 (harg3.unread x1) ⟨n, hk⟩)
        (ldMask (F := Ideal) arg5 (harg5.unread x3) ⟨n, hk⟩) (ix2 r j)) = rowX x0 x1 x3 r ⟨n, hn9⟩ := by
      funext j
      rw [Pay.pay4_apply, ldMask_apply arg5 harg5 x3 ⟨n, hk⟩ ⟨n, hn9⟩ rfl j]
      show _ = (∑ c' : Fin 64, x0 (ix3 0 c' r) * x1 (ix4 ⟨n, hn9⟩ 0 c' j)) + x3 (ix3 0 0 (keyPos ⟨n, hn9⟩ j))
      congr 1
      exact Finset.sum_congr rfl fun c' _ => by rw [ldFrame_apply arg3 harg3 x1 ⟨n, hk⟩ ⟨n, hn9⟩ rfl c' j]
    have hv : (fun j => ldFrame (F := Ideal) arg4 (harg4.unread x2) ⟨n, hk⟩ (ix4 0 0 ch j)) = rowV x2 ch ⟨n, hn9⟩ := by
      funext j
      exact ldFrame_apply arg4 harg4 x2 ⟨n, hk⟩ ⟨n, hn9⟩ rfl ch j
    rw [hst, trip_eq, onl_succ _ _ n hn9]
    refine ⟨?_, ?_, ?_⟩
    · show k0_pay5 _ _ _ _ (ix2 r 0) = _
      rw [Pay.pay5_apply, hx, ih1]
    · show k0_pay9 _ _ _ _ _ (ix2 r 0) = _
      rw [Pay.pay9_apply, hx, ih1, ih2]
    · show k0_pay10 _ _ _ _ _ _ (ix2 r ch) = _
      rw [Pay.pay10_apply, hx, hv, ih1, ih3]

end carried

/-- Channel `ch`, row `r` of the block the body stores: the streaming softmax of query row `r` (`x0`) against the keys
    (`x1`), the mask (`x3`) and channel `ch` of the values (`x2`) of all nine frames. -/
theorem out_apply (c : Dev nD) (i : grid0.Coords) (arg2 : Memref sig .tc .vmem S1x64x256 .f32) (harg2 : arg2.IsWhole) (arg3 : Memref sig .tc .vmem S9x1x64x1024 .f32) (harg3 : arg3.IsWhole) (arg4 : Memref sig .tc .vmem S9x1x64x1024 .f32) (harg4 : arg4.IsWhole) (arg5 : Memref sig .tc .vmem S1x1x9216 .f32) (harg5 : arg5.IsWhole) (arg6 : Memref sig .tc .vmem S1x64x256 .f32) (harg6 : arg6.IsWhole) (x0 : Vec Ideal S1x64x256 .f32) (x1 : Vec Ideal S9x1x64x1024 .f32) (x2 : Vec Ideal S9x1x64x1024 .f32) (x3 : Vec Ideal S1x1x9216 .f32) (ch : Fin 64) (r : Fin 256) :
    out0_A_4 (F := Ideal) c i arg2 harg2 arg3 harg3 arg4 harg4 arg5 harg5 arg6 harg6 x0 x1 x2 x3 (ix3 0 ch r)
      = onlineOut (score (fun c' => x0 (ix3 0 c' r)) (fun s c' j => x1 (ix4 s 0 c' j)) (fun s j => x3 (ix3 0 0 (keyPos s j))))
          (fun s j => x2 (ix4 s 0 ch j)) := by
  unfold out0_A_4
  rw [View.read_writes_eq_canon _ _ _ (cover0_A_4 c i arg2 harg2 arg3 harg3 arg4 harg4 arg5 harg5 arg6 harg6 x0 x1 x2 x3)]
  unfold kernelRun0_A
  dsimp only
  rw [View.canon_unit_zero hz3]
  simp only [View.readAt_eq_ld, harg2.read_unread, View.ld_unit_zero (S := S1x64x256) hz3]
  rw [Pay.pay11_apply]
  have hN : Scf.trips (0#32) (Scalar.addi 0#32 9#32) 1#32 = 9 := trips_eq
  rw [hN]
  obtain ⟨-, h2, h3⟩ := carried_eq c i arg2 harg2 arg3 harg3 arg4 harg4 arg5 harg5 arg6 harg6 x0 x1 x2 x3 ch r 9 le_rfl
  show Ideal.div ((carriedAt c i arg2 harg2 arg3 harg3 arg4 harg4 arg5 harg5 arg6 harg6 x0 x1 x2 x3 9).2.2 (ix2 r ch)) ((carriedAt c i arg2 harg2 arg3 harg3 arg4 harg4 arg5 harg5 arg6 harg6 x0 x1 x2 x3 9).2.1 (ix2 r 0)) = _
  rw [h2, h3]
  rfl

end Cert.Attn.Run

end
-- ==== Proof.KernelArray.lean ====
/-
  The kernel program's result array: every block the sixteen grid points write back is the streaming attention of the
  arguments at the block's batch and query tile; the blocks cover the array; the closing reshape lays it out as
  [batch, channel, row, column].
-/
import proofs.«420717_j13408887898646_3_alg».proof.Proof.Gen.KernelIdeal.Frame
import proofs.«420717_j13408887898646_3_alg».proof.Proof.KernelRun
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Attn.Arr

open Cert.KernelIdeal Cert.KernelIdeal.Gen Cert.Attn

variable (m : (ℓ : Loc nD τ sig) → Buf (Elt Ideal) ℓ) (ρ : Dev nD → PrngReg)

/-! ## The index maps -/

/-- The index maps, decided over the sixteen grid points: every window's block index is read off the point's batch and
    query tile. -/
theorem idx_facts : ∀ t : Fin cfg0.N,
    win0_4.index t (0 : Fin 3) = (grid0.coords t 0).val ∧ win0_4.index t (1 : Fin 3) = 0 ∧ win0_4.index t (2 : Fin 3) = (grid0.coords t 1).val
    ∧ win0_0.index t (0 : Fin 3) = (grid0.coords t 0).val ∧ win0_0.index t (1 : Fin 3) = 0 ∧ win0_0.index t (2 : Fin 3) = (grid0.coords t 1).val
    ∧ win0_1.index t (0 : Fin 4) = 0 ∧ win0_1.index t (1 : Fin 4) = (grid0.coords t 0).val ∧ win0_1.index t (2 : Fin 4) = 0 ∧ win0_1.index t (3 : Fin 4) = 0
    ∧ win0_2.index t (0 : Fin 4) = 0 ∧ win0_2.index t (1 : Fin 4) = (grid0.coords t 0).val ∧ win0_2.index t (2 : Fin 4) = 0 ∧ win0_2.index t (3 : Fin 4) = 0
    ∧ win0_3.index t (0 : Fin 3) = (grid0.coords t 0).val ∧ win0_3.index t (1 : Fin 3) = 0 ∧ win0_3.index t (2 : Fin 3) = 0 :=
  (by decide +kernel : ∀ t : Fin grid0.N, _)

/-- Every (batch, query tile) pair is some grid point's. -/
theorem coords_onto : ∀ (b : Fin 4) (qi : Fin 4), ∃ t : Fin cfg0.N, (grid0.coords t 0).val = b.val ∧ (grid0.coords t 1).val = qi.val :=
  (by decide +kernel : ∀ (b : Fin 4) (qi : Fin 4), ∃ t : Fin grid0.N, (grid0.coords t 0).val = b.val ∧ (grid0.coords t 1).val = qi.val)

/-! ## The input blocks, read where their rectangles say

A block's element sits in its array, axis by axis, at block index × block size + its coordinate inside the block. -/

/-- The query block at a point: the point's batch, every channel, the 256 pixels of the point's tile. -/
theorem iblk0_apply (c : Dev nD) (t : Fin cfg0.N) (c' : Fin 64) (r : Fin 256) (k : S4x64x1024.Idx)
    (h0 : (k 0).val = (grid0.coords t 0).val) (h1 : (k 1).val = c'.val) (h2 : (k 2).val = (grid0.coords t 1).val * 256 + r.val) :
    (iblk (F := Ideal) m c 0 t : Vec Ideal S1x64x256 .f32) (ix3 0 c' r) = (V (F := Ideal) m c main_v2 : S4x64x1024.Idx → EReal) k := by
  obtain ⟨-, -, -, e0, e1, e2, -⟩ := idx_facts t
  unfold iblk
  rw [View.read_apply]
  show V m c main_v2 (((cfg0.win 0).blk t).view.emb (ix3 0 c' r)) = V m c main_v2 k
  congr 1
  funext a
  apply Fin.ext
  match a with
  | ⟨0, _⟩ => show win0_0.index t (0 : Fin 3) * 1 + 1 * (0 : Fin 1).val = (k 0).val; rw [e0, h0]; simp
  | ⟨1, _⟩ => show win0_0.index t (1 : Fin 3) * 64 + 1 * c'.val = (k 1).val; rw [e1, h1]; omega
  | ⟨2, _⟩ => show win0_0.index t (2 : Fin 3) * 256 + 1 * r.val = (k 2).val; rw [e2, h2]; omega

/-- The key block at a point: every frame, the point's batch, every channel, every pixel. -/
theorem iblk1_apply (c : Dev nD) (t : Fin cfg0.N) (s : Fin 9) (c' : Fin 64) (j : Fin 1024) (k : S9x4x64x1024.Idx)
    (h0 : (k 0).val = s.val) (h1 : (k 1).val = (grid0.coords t 0).val) (h2 : (k 2).val = c'.val) (h3 : (k 3).val = j.val) :
    (iblk (F := Ideal) m c 1 t : Vec Ideal S9x1x64x1024 .f32) (ix4 s 0 c' j) = (V (F := Ideal) m c main_v0 : S9x4x64x1024.Idx → EReal) k := by
  obtain ⟨-, -, -, -, -, -, e0, e1, e2, e3, -⟩ := idx_facts t
  unfold iblk
  rw [View.read_apply]
  show V m c main_v0 (((cfg0.win 1).blk t).view.emb (ix4 s 0 c' j)) = V m c main_v0 k
  congr 1
  funext a
  apply Fin.ext
  match a with
  | ⟨0, _⟩ => show win0_1.index t (0 : Fin 4) * 9 + 1 * s.val = (k 0).val; rw [e0, h0]; omega
  | ⟨1, _⟩ => show win0_1.index t (1 : Fin 4) * 1 + 1 * (0 : Fin 1).val = (k 1).val; rw [e1, h1]; simp
  | ⟨2, _⟩ => show win0_1.index t (2 : Fin 4) * 64 + 1 * c'.val = (k 2).val; rw [e2, h2]; omega
  | ⟨3, _⟩ => show win0_1.index t (3 : Fin 4) * 1024 + 1 * j.val = (k 3).val; rw [e3, h3]; omega

/-- The value block at a point, likewise. -/
theorem iblk2_apply (c : Dev nD) (t : Fin cfg0.N) (s : Fin 9) (c' : Fin 64) (j : Fin 1024) (k : S9x4x64x1024.Idx)
    (h0 : (k 0).val = s.val) (h1 : (k 1).val = (grid0.coords t 0).val) (h2 : (k 2).val = c'.val) (h3 : (k 3).val = j.val) :
    (iblk (F := Ideal) m c 2 t : Vec Ideal S9x1x64x1024 .f32) (ix4 s 0 c' j) = (V (F := Ideal) m c main_v1 : S9x4x64x1024.Idx → EReal) k := by
  obtain ⟨-, -, -, -, -, -, -, -, -, -, e0, e1, e2, e3, -⟩ := idx_facts t
  unfold iblk
  rw [View.read_apply]
  show V m c main_v1 (((cfg0.win 2).blk t).view.emb (ix4 s 0 c' j)) = V m c main_v1 k
  congr 1
  funext a
  apply Fin.ext
  match a with
  | ⟨0, _⟩ => show win0_2.index t (0 : Fin 4) * 9 + 1 * s.val = (k 0).val; rw [e0, h0]; omega
  | ⟨1, _⟩ => show win0_2.index t (1 : Fin 4) * 1 + 1 * (0 : Fin 1).val = (k 1).val; rw [e1, h1]; simp
  | ⟨2, _⟩ => show win0_2.index t (2 : Fin 4) * 64 + 1 * c'.val = (k 2).val; rw [e2, h2]; omega
  | ⟨3, _⟩ => show win0_2.index t (3 : Fin 4) * 1024 + 1 * j.val = (k 3).val; rw [e3, h3]; omega

/-- The mask block at a point: the point's batch, every key position. -/
theorem iblk3_apply (c : Dev nD) (t : Fin cfg0.N) (p : Fin 9216) (k : S4x1x9216.Idx)
    (h0 : (k 0).val = (grid0.coords t 0).val) (h2 : (k 2).val = p.val) :
    (iblk (F := Ideal) m c 3 t : Vec Ideal S1x1x9216 .f32) (ix3 0 0 p) = (V (F := Ideal) m c main_v24 : S4x1x9216.Idx → EReal) k := by
  obtain ⟨-, -, -, -, -, -, -, -, -, -, -, -, -, -, e0, e1, e2⟩ := idx_facts t
  unfold iblk
  rw [View.read_apply]
  show V m c main_v24 (((cfg0.win 3).blk t).view.emb (ix3 0 0 p)) = V m c main_v24 k
  congr 1
  funext a
  apply Fin.ext
  match a with
  | ⟨0, _⟩ => show win0_3.index t (0 : Fin 3) * 1 + 1 * (0 : Fin 1).val = (k 0).val; rw [e0, h0]; simp
  | ⟨1, _⟩ => show win0_3.index t (1 : Fin 3) * 1 + 1 * (0 : Fin 1).val = (k 1).val; rw [e1]; have := (k 1).isLt; simp at this ⊢; omega
  | ⟨2, _⟩ => show win0_3.index t (2 : Fin 3) * 9216 + 1 * p.val = (k 2).val; rw [e2, h2]; omega

/-! ## The arrays the host operations before the region wrote

The keys, the values and the query reach the kernel flattened over their last two axes: pixel `j` is row `j / 32`,
column `j % 32`. -/

theorem V_v0_eq (c : Dev nD) :
    (V (F := Ideal) m c main_v0 : S9x4x64x1024.Idx → EReal)
      = shapeCast S9x4x64x1024 (m ((c.tc : Thread nD τ).loc main_arg0) : S9x4x64x32x32.Idx → EReal) shapeCasts_S9x4x64x32x32_S9x4x64x1024 := by
  dsimp only [Gen.V, Gen.V0]
  simp only [Gen.hostOps0, Gen.hostOps0_1, Gen.hostOps0_2, List.flatten_cons, List.flatten_nil, List.append_nil, List.cons_append, List.nil_append]
  after_results
  rfl

theorem V_v1_eq (c : Dev nD) :
    (V (F := Ideal) m c main_v1 : S9x4x64x1024.Idx → EReal)
      = shapeCast S9x4x64x1024 (m ((c.tc : Thread nD τ).loc main_arg1) : S9x4x64x32x32.Idx → EReal) shapeCasts_S9x4x64x32x32_S9x4x64x1024 := by
  dsimp only [Gen.V, Gen.V0]
  simp only [Gen.hostOps0, Gen.hostOps0_1, Gen.hostOps0_2, List.flatten_cons, List.flatten_nil, List.append_nil, List.cons_append, List.nil_append]
  after_results
  rfl

theorem V_v2_eq (c : Dev nD) :
    (V (F := Ideal) m c main_v2 : S4x64x1024.Idx → EReal)
      = shapeCast S4x64x1024 (m ((c.tc : Thread nD τ).loc main_arg2) : S4x64x32x32.Idx → EReal) shapeCasts_S4x64x32x32_S4x64x1024 := by
  dsimp only [Gen.V, Gen.V0]
  simp only [Gen.hostOps0, Gen.hostOps0_1, Gen.hostOps0_2, List.flatten_cons, List.flatten_nil, List.append_nil, List.cons_append, List.nil_append]
  after_results
  rfl

/-- The flattened keys at frame, batch, channel, pixel. -/
theorem V_v0_apply (c : Dev nD) (s : Fin 9) (b : Fin 4) (c' : Fin 64) (j : Fin 1024) :
    (V (F := Ideal) m c main_v0 : S9x4x64x1024.Idx → EReal) (ix4 s b c' j)
      = (m ((c.tc : Thread nD τ).loc main_arg0) : S9x4x64x32x32.Idx → EReal) (ix5 s b c' (pixH j) (pixW j)) := by
  rw [V_v0_eq]
  refine shapeCast_apply _ _ _ _ ?_
  show (S9x4x64x32x32.rowMajor (ix5 s b c' (pixH j) (pixW j))).val = (S9x4x64x1024.rowMajor (ix4 s b c' j)).val
  rw [Shape.rowMajor_val_five, Shape.rowMajor_val_four]
  show ((((s.val * 4 + b.val) * 64 + c'.val) * 32 + j.val / 32) * 32 + j.val % 32) = ((s.val * 4 + b.val) * 64 + c'.val) * 1024 + j.val
  omega

/-- The flattened values, likewise. -/
theorem V_v1_apply (c : Dev nD) (s : Fin 9) (b : Fin 4) (c' : Fin 64) (j : Fin 1024) :
    (V (F := Ideal) m c main_v1 : S9x4x64x1024.Idx → EReal) (ix4 s b c' j)
      = (m ((c.tc : Thread nD τ).loc main_arg1) : S9x4x64x32x32.Idx → EReal) (ix5 s b c' (pixH j) (pixW j)) := by
  rw [V_v1_eq]
  refine shapeCast_apply _ _ _ _ ?_
  show (S9x4x64x32x32.rowMajor (ix5 s b c' (pixH j) (pixW j))).val = (S9x4x64x1024.rowMajor (ix4 s b c' j)).val
  rw [Shape.rowMajor_val_five, Shape.rowMajor_val_four]
  show ((((s.val * 4 + b.val) * 64 + c'.val) * 32 + j.val / 32) * 32 + j.val % 32) = ((s.val * 4 + b.val) * 64 + c'.val) * 1024 + j.val
  omega

/-- The flattened query at batch, channel, pixel. -/
theorem V_v2_apply (c : Dev nD) (b : Fin 4) (c' : Fin 64) (q : Fin 1024) :
    (V (F := Ideal) m c main_v2 : S4x64x1024.Idx → EReal) (ix3 b c' q)
      = (m ((c.tc : Thread nD τ).loc main_arg2) : S4x64x32x32.Idx → EReal) (ix4 b c' (pixH q) (pixW q)) := by
  rw [V_v2_eq]
  refine shapeCast_apply _ _ _ _ ?_
  show (S4x64x32x32.rowMajor (ix4 b c' (pixH q) (pixW q))).val = (S4x64x1024.rowMajor (ix3 b c' q)).val
  rw [Shape.rowMajor_val_four, Shape.rowMajor_val_three]
  show (((b.val * 64 + c'.val) * 32 + q.val / 32) * 32 + q.val % 32) = (b.val * 64 + c'.val) * 1024 + q.val
  omega

/-! ## What a point writes back -/

/-- The region's whole result as one function of an index `[batch, channel, pixel]`: the streaming attention of that
    batch's query at the pixel against every key position, weighing that channel of the values. -/
def G (c : Dev nD) : S4x64x1024.Idx → EReal := fun i =>
  onlineOut (rowScore (m ((c.tc : Thread nD τ).loc main_arg0)) (m ((c.tc : Thread nD τ).loc main_arg2)) (V (F := Ideal) m c main_v24) (i 0) (i 2))
    (rowVals (m ((c.tc : Thread nD τ).loc main_arg1)) (i 0) (i 1))

/-- The output block after the body at a point, at channel `ch` and row `r` of the tile: the body's streaming softmax
    over the point's blocks, each block entry read in its array and each flattened array in the argument it came from. -/
theorem out_at (c : Dev nD) (t : Fin cfg0.N) (ch : Fin 64) (r : Fin 256) (b : Fin 4) (ch' : Fin 64) (q : Fin 1024)
    (hb : b.val = (grid0.coords t 0).val) (hch : ch'.val = ch.val) (hq : q.val = (grid0.coords t 1).val * 256 + r.val) :
    (outsAt0 (F := Ideal) m c t : Vec Ideal S1x64x256 .f32) (ix3 0 ch r)
      = onlineOut (rowScore (m ((c.tc : Thread nD τ).loc main_arg0)) (m ((c.tc : Thread nD τ).loc main_arg2)) (V (F := Ideal) m c main_v24) b q) (rowVals (m ((c.tc : Thread nD τ).loc main_arg1)) b ch') := by
  obtain rfl : ch' = ch := Fin.ext hch
  unfold outsAt0
  refine (Cert.Attn.Run.out_apply c (grid0.coords t) (ms0_0 t) (hs0_0 t) (ms0_1 t) (hs0_1 t) (ms0_2 t) (hs0_2 t) (ms0_3 t) (hs0_3 t)
    (ms0_4 t) (hs0_4 t) (iblk (F := Ideal) m c 0 t) (iblk (F := Ideal) m c 1 t) (iblk (F := Ideal) m c 2 t) (iblk (F := Ideal) m c 3 t) ch' r).trans ?_
  have e0 : (fun c' : Fin 64 => (iblk (F := Ideal) m c 0 t : Vec Ideal S1x64x256 .f32) (ix3 0 c' r))
      = fun c' : Fin 64 => ((m ((c.tc : Thread nD τ).loc main_arg2)) : S4x64x32x32.Idx → EReal) (ix4 b c' (pixH q) (pixW q)) :=
    funext fun c' => (iblk0_apply m c t c' r (ix3 b c' q) hb rfl hq).trans (V_v2_apply m c b c' q)
  have e1 : (fun (s : Fin 9) (c' : Fin 64) (j : Fin 1024) => (iblk (F := Ideal) m c 1 t : Vec Ideal S9x1x64x1024 .f32) (ix4 s 0 c' j))
      = fun (s : Fin 9) (c' : Fin 64) (j : Fin 1024) => ((m ((c.tc : Thread nD τ).loc main_arg0)) : S9x4x64x32x32.Idx → EReal) (ix5 s b c' (pixH j) (pixW j)) :=
    funext fun s => funext fun c' => funext fun j =>
      (iblk1_apply m c t s c' j (ix4 s b c' j) rfl hb rfl rfl).trans (V_v0_apply m c s b c' j)
  have e2 : (fun (s : Fin 9) (j : Fin 1024) => (iblk (F := Ideal) m c 2 t : Vec Ideal S9x1x64x1024 .f32) (ix4 s 0 ch' j))
      = rowVals (m ((c.tc : Thread nD τ).loc main_arg1)) b ch' :=
    funext fun s => funext fun j =>
      (iblk2_apply m c t s ch' j (ix4 s b ch' j) rfl hb rfl rfl).trans (V_v1_apply m c s b ch' j)
  have e3 : (fun (s : Fin 9) (j : Fin 1024) => (iblk (F := Ideal) m c 3 t : Vec Ideal S1x1x9216 .f32) (ix3 0 0 (keyPos s j)))
      = fun (s : Fin 9) (j : Fin 1024) => (V (F := Ideal) m c main_v24 : S4x1x9216.Idx → EReal) (ix3 b 0 (keyPos s j)) :=
    funext fun s => funext fun j => iblk3_apply m c t (keyPos s j) (ix3 b 0 (keyPos s j)) hb rfl
  exact congr (congrArg onlineOut (congr (congr (congrArg score e0) e1) e3)) e2

/-- What point `t` writes back is block `t` of `G`. -/
theorem flushed_eq (c : Dev nD) (t : Fin cfg0.N) :
    (dats (F := Ideal) m 0 c).flushed 4 t = ((cfg0.win 4).blk t).view.read (Elt Ideal) (G m c) := by
  show (cfg0.win 4).cut (grid0.coords t) ((dats (F := Ideal) m 0 c).after 4 t) = _
  rw [after0_4]
  obtain ⟨e0, e1, e2, -⟩ := idx_facts t
  refine funext fun (y : S1x64x256.Idx) => ?_
  obtain ⟨ch, r, rfl⟩ : ∃ (ch : Fin 64) (r : Fin 256), y = ix3 0 ch r :=
    ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
  rw [View.read_apply]
  show (outsAt0 (F := Ideal) m c t : Vec Ideal S1x64x256 .f32) (ix3 0 ch r) = G m c (((cfg0.win 4).blk t).view.emb (ix3 0 ch r))
  unfold G
  refine out_at m c t ch r _ _ _ ?_ ?_ ?_
  · show win0_4.index t (0 : Fin 3) * 1 + 1 * (0 : Fin 1).val = (grid0.coords t 0).val
    rw [e0]; simp
  · show win0_4.index t (1 : Fin 3) * 64 + 1 * ch.val = ch.val
    rw [e1]; omega
  · show win0_4.index t (2 : Fin 3) * 256 + 1 * r.val = (grid0.coords t 1).val * 256 + r.val
    rw [e2]; omega

/-! ## The blocks cover the array -/

/-- An index of the array is in point `t`'s block iff each coordinate is in the block's range on its axis. -/
theorem mem_blk (t : Fin cfg0.N) (i : S4x64x1024.Idx) :
    i ∈ ((cfg0.win 4).blk t).view.set ↔ ∀ a : Fin 3, win0_4.index t a * S1x64x256.size a ≤ (i a).val ∧ (i a).val < win0_4.index t a * S1x64x256.size a + S1x64x256.size a := by
  show i ∈ ((View.whole main_v25).slice (win0_4.rect t)).set ↔ _
  rw [View.set_slice_whole, Rect.mem_set_unit]
  exact Iff.rfl

/-- Index `(b, ch, q)` lies in the block of the point of batch `b` and query tile `q / 256`. -/
theorem cover (i : S4x64x1024.Idx) : ∃ t : Fin cfg0.N, (cfg0.win 4).flush t = true ∧ i ∈ ((cfg0.win 4).blk t).view.set := by
  have hi0 : (i 0).val < 4 := (i 0).isLt
  have hi1 : (i 1).val < 64 := (i 1).isLt
  have hi2 : (i 2).val < 1024 := (i 2).isLt
  obtain ⟨t, hb, hq⟩ := coords_onto ⟨(i 0).val, hi0⟩ ⟨(i 2).val / 256, by omega⟩
  have hb' : (grid0.coords t 0).val = (i 0).val := hb
  have hq' : (grid0.coords t 1).val = (i 2).val / 256 := hq
  obtain ⟨e0, e1, e2, -⟩ := idx_facts t
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    rw [e0, hb']; omega
  | ⟨1, _⟩ =>
    show win0_4.index t (1 : Fin 3) * 64 ≤ (i 1).val ∧ (i 1).val < win0_4.index t (1 : Fin 3) * 64 + 64
    rw [e1]; omega
  | ⟨2, _⟩ =>
    show win0_4.index t (2 : Fin 3) * 256 ≤ (i 2).val ∧ (i 2).val < win0_4.index t (2 : Fin 3) * 256 + 256
    rw [e2, hq']; omega

/-- So the region's result array ends holding `G`. -/
theorem final (c : Dev nD) : (dats (F := Ideal) m 0 c).arrAt 4 cfg0.N = G m c :=
  (dats (F := Ideal) m 0 c).arrAt_eq_of_cover 4 (G m c) (fun t _ => flushed_eq m c t) (fun i => cover i)

/-! ## The closing reshape, and the run -/

/-- The result array after the host's closing reshape: index `(b, ch, h, w)` reads `G` at `(b, ch, h · 32 + w)`, which
    is the streaming attention of the arguments. -/
theorem tail_eq (c : Dev nD) :
    (Pipeline.afterTail₀ cfgs (dats (F := Ideal) m) 0 (V0 m) [hostOps1] c main_v26 : S4x64x32x32.Idx → EReal)
      = attnOnline (m ((c.tc : Thread nD τ).loc main_arg0)) (m ((c.tc : Thread nD τ).loc main_arg1)) (m ((c.tc : Thread nD τ).loc main_arg2)) (V (F := Ideal) m c main_v24) := by
  unfold Pipeline.afterTail₀
  show StableHlo.after hostOps1 _ (Proc.devRef .tc main_v26) = _
  after_results
  have hW : Pipeline.withArrays (cfgs 0).spec c (V0 m c) (fun w => (dats (F := Ideal) m 0 c).arrAt w (cfgs 0).N) (Proc.devRef .tc main_v25)
      = G m c := (Pipeline.withArrays_arr spec0 launch0.win.arr_inj c _ _ 4).trans (final m c)
  rw [hW]
  refine funext fun (i : S4x64x32x32.Idx) => ?_
  obtain ⟨b, ch, h, w, rfl⟩ : ∃ (b : Fin 4) (ch : Fin 64) (h w : Fin 32), i = ix4 b ch h w := ⟨i 0, i 1, i 2, i 3, eq_ix4 i⟩
  show shapeCast S4x64x32x32 (G m c) shapeCasts_S4x64x1024_S4x64x32x32 (ix4 b ch h w) = attnOnline _ _ _ _ (ix4 b ch h w)
  refine (shapeCast_apply (G m c) _ (ix4 b ch h w) (ix3 b ch (pix h w)) ?_).trans ?_
  · show (S4x64x1024.rowMajor (ix3 b ch (pix h w))).val = (S4x64x32x32.rowMajor (ix4 b ch h w)).val
    rw [Shape.rowMajor_val_three, Shape.rowMajor_val_four]
    show (b.val * 64 + ch.val) * 1024 + (h.val * 32 + w.val) = ((b.val * 64 + ch.val) * 32 + h.val) * 32 + w.val
    omega
  · rfl

/-- The kernel program's run at the extended reals: it ends with the result array at the streaming attention of the three
    float arguments and the mask array its host operations built, and the arguments unchanged. -/
theorem kernel_run :
    θ_run (defs (F := Ideal)) (onTc (τ := τ) (main (F := Ideal))) ⟨m, fun _ => 0, ρ⟩ (fun r => ∀ c : Dev nD,
      r.2.mem ((c.tc : Thread nD τ).loc main_v26)
          = attnOnline (m ((c.tc : Thread nD τ).loc main_arg0)) (m ((c.tc : Thread nD τ).loc main_arg1))
              (m ((c.tc : Thread nD τ).loc main_arg2)) (V (F := Ideal) m c main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v26 (Pipeline.mem_restRefs_of main_v26 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Attn.Arr

end
-- ==== Proof.lean ====
/-
  The certificate of a streaming (flash-style) attention kernel against its textbook reference.

  Both programs compute, for every batch, query pixel and channel, the softmax-weighted sum of nine frames of values, the
  scores being dot products of the query with the keys plus an additive mask that is `0` where a (frame, pixel) is attended and
  `-∞` where it is not. The reference forms the whole score row, subtracts its maximum, exponentiates, normalises and
  multiplies by the values. The kernel visits the frames one after the other, carrying a running maximum, normaliser and
  weighted sum that it rescales when the maximum moves, and divides once at the end.

  Over the extended reals the two agree on every row that has an attended key position. The precondition says so of every
  batch (without one the reference's softmax divides zero by zero), and says that the float arguments are finite, which makes
  every score real or `-∞` and lets the rescaling and the final division be carried out in the reals.

  * the three frames: the kernel programs' are the generated frame certificates; the reference's is its generated run;
  * `preserves`: the idealization rewrote nothing;
  * `algebraic`: the kernel program's result array is the streaming attention of the arguments (KernelRun, KernelArray over
    KernelPay), the reference's is the textbook attention (RefValue), both built on the same mask array (BiasPre), and the two
    forms agree under the precondition (OnlineSoftmax, Bridge).
-/
import proofs.«420717_j13408887898646_3_alg».proof.Defs
import proofs.«420717_j13408887898646_3_alg».proof.Proof.Gen.Kernel
import proofs.«420717_j13408887898646_3_alg».proof.Proof.Gen.Kernel.Skeleton
import proofs.«420717_j13408887898646_3_alg».proof.Proof.Gen.Kernel.Loops
import proofs.«420717_j13408887898646_3_alg».proof.Proof.Gen.Kernel.Launch
import proofs.«420717_j13408887898646_3_alg».proof.Proof.Gen.Kernel.Points
import proofs.«420717_j13408887898646_3_alg».proof.Proof.Gen.Kernel.Frame
import proofs.«420717_j13408887898646_3_alg».proof.Proof.Gen.KernelIdeal
import proofs.«420717_j13408887898646_3_alg».proof.Proof.Gen.KernelIdeal.Skeleton
import proofs.«420717_j13408887898646_3_alg».proof.Proof.Gen.KernelIdeal.Loops
import proofs.«420717_j13408887898646_3_alg».proof.Proof.Gen.KernelIdeal.Launch
import proofs.«420717_j13408887898646_3_alg».proof.Proof.Gen.KernelIdeal.Points
import proofs.«420717_j13408887898646_3_alg».proof.Proof.Gen.KernelIdeal.Frame
import proofs.«420717_j13408887898646_3_alg».proof.Proof.Gen.ReferenceIdeal
import proofs.«420717_j13408887898646_3_alg».proof.Proof.Gen.Pre_finite_inputs
import proofs.«420717_j13408887898646_3_alg».proof.Proof.Gen.ReferenceIdeal.Run
import proofs.«420717_j13408887898646_3_alg».proof.Proof.Gen.ReferenceIdeal.Read
import proofs.«420717_j13408887898646_3_alg».proof.Proof.Spec
import proofs.«420717_j13408887898646_3_alg».proof.Proof.Bridge
import proofs.«420717_j13408887898646_3_alg».proof.Proof.RefValue
import proofs.«420717_j13408887898646_3_alg».proof.Proof.BiasPre
import proofs.«420717_j13408887898646_3_alg».proof.Proof.KernelArray
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel program ends at the streaming attention of its arguments and its mask array, the reference at the textbook
    attention of the same arguments and the same mask array; under the precondition these are one array. -/
theorem algebraic : Cert.algebraic_KernelIdeal_ReferenceIdeal := by
  intro m ρ m' ρ' hpre hagree
  refine ⟨fun c => Cert.Attn.attnOnline (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.KernelIdeal.Gen.V (F := Ideal) m c Cert.KernelIdeal.main_v24), Cert.Attn.Arr.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hk, hv, hq, hb, hex⟩ := Cert.Attn.Pre.pre_decode _ _ _ _ _ (hpre c)
  rw [Cert.ReferenceIdeal.Read.val_main_v46_eq, (hagree c).1, (hagree c).2.1, (hagree c).2.2.1, (hagree c).2.2.2.1,
    (hagree c).2.2.2.2, Cert.Attn.Ref.ref_eq_spec]
  show _ = Cert.Attn.attnOnline _ _ _ (Cert.KernelIdeal.Gen.V (F := Ideal) m c Cert.KernelIdeal.main_v24)
  rw [Cert.Attn.Pre.kernel_bias_eq m c]
  exact (Cert.Attn.attnOnline_eq_attnSpec _ _ _ _ hk hv hq hb hex).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
